-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S_ : Shape := ⟨0, ![]⟩

class Facts : Prop where
  bcast_S_S524288x128 : S_.BroadcastsInDim S524288x128 (![] : Fin 0 → Fin S524288x128.rank)
  reducesTo_S524288x128_S_d0_1 : S524288x128.ReducesTo [0, 1] S_
  h_S_ : 0 < S_.numel
  bcast_S_S84x128 : S_.BroadcastsInDim S84x128 (![] : Fin 0 → Fin S84x128.rank)
  reducesTo_S84x128_S_d0_1 : S84x128.ReducesTo [0, 1] S_
  bcast_S_S84 : S_.BroadcastsInDim S84 (![] : Fin 0 → Fin S84.rank)
  reducesTo_S84_S_d0 : S84.ReducesTo [0] S_
  bcast_S_S42x84 : S_.BroadcastsInDim S42x84 (![] : Fin 0 → Fin S42x84.rank)
  reducesTo_S42x84_S_d0_1 : S42x84.ReducesTo [0, 1] S_
  bcast_S_S42 : S_.BroadcastsInDim S42 (![] : Fin 0 → Fin S42.rank)
  reducesTo_S42_S_d0 : S42.ReducesTo [0] S_
  bcast_S_S32x42 : S_.BroadcastsInDim S32x42 (![] : Fin 0 → Fin S32x42.rank)
  reducesTo_S32x42_S_d0_1 : S32x42.ReducesTo [0, 1] S_
  bcast_S_S32 : S_.BroadcastsInDim S32 (![] : Fin 0 → Fin S32.rank)
  reducesTo_S32_S_d0 : S32.ReducesTo [0] S_
  bcast_S_S16x32 : S_.BroadcastsInDim S16x32 (![] : Fin 0 → Fin S16x32.rank)
  reducesTo_S16x32_S_d0_1 : S16x32.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S1x4 : S_.BroadcastsInDim S1x4 (![] : Fin 0 → Fin S1x4.rank)
  reducesTo_S1x4_S_d0_1 : S1x4.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S4x8 .f32) (main_arg12 : FVec F S4 .f32) (main_arg13 : FVec F S1x4 .f32) (main_arg14 : FVec F S1 .f32) (main_v48 : IVec S_ 1) (main_v49 : FVec F S8 .f32) (main_v50 : FVec F S8 .f32) : IVec S_ 1 :=
  let main_v51 : IVec S8 1 := cmpf .olt main_v49 main_v50
  let main_c_19 : IVec S_ 1 := constantI S_ 1 1#1
  let main_v52 : IVec S_ 1 := (fun x v => Host.reduce IntOp.andi x v reducesTo_S8_S_d0 h_S_) main_v51 main_c_19
  let main_v53 : IVec S_ 1 := andi main_v48 main_v52
  let main_v54 : FVec F S4x8 .f32 := Host.absf main_arg11
  let main_cst_20 : FVec F S_ .f32 := constant S_ .f32 0x7F800000#32
  let main_v55 : FVec F S4x8 .f32 := broadcastInDim S4x8 ![] bcast_S_S4x8 main_cst_20
  let main_v56 : IVec S4x8 1 := cmpf .olt main_v54 main_v55
  let main_c_21 : IVec S_ 1 := constantI S_ 1 1#1
  let main_v57 : IVec S_ 1 := (fun x v => Host.reduce IntOp.andi x v reducesTo_S4x8_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S1x4 .f32 := Host.absf main_arg13
  let main_cst_24 : FVec F S_ .f32 := constant S_ .f32 0x7F800000#32
  let main_v65 : FVec F S1x4 .f32 := broadcastInDim S1x4 ![] bcast_S_S1x4 main_cst_24
  let main_v66 : IVec S1x4 1 := cmpf .olt main_v64 main_v65
  let main_c_25 : IVec S_ 1 := constantI S_ 1 1#1
  let main_v67 : IVec S_ 1 := (fun x v => Host.reduce IntOp.andi x v reducesTo_S1x4_S_d0_1 h_S_) main_v66 main_c_25
  fn_part4 (F := F) main_arg14 main_v63 main_v67

def fn_part2 {F : FTy → Type} [FloatOps F] (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) (main_v33 : IVec S_ 1) : IVec S_ 1 :=
  let main_v34 : FVec F S16x32 .f32 := Host.absf main_arg7
  let main_cst_12 : FVec F S_ .f32 := constant S_ .f32 0x7F800000#32
  let main_v35 : FVec F S16x32 .f32 := broadcastInDim S16x32 ![] bcast_S_S16x32 main_cst_12
  let main_v36 : IVec S16x32 1 := cmpf .olt main_v34 main_v35
  let main_c_13 : IVec S_ 1 := constantI S_ 1 1#1
  let main_v37 : IVec S_ 1 := (fun x v => Host.reduce IntOp.andi x v reducesTo_S16x32_S_d0_1 h_S_) main_v36 main_c_13
  let main_v38 : IVec S_ 1 := andi main_v33 main_v37
  let main_v39 : FVec F S16 .f32 := Host.absf main_arg8
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S8x16 .f32 := Host.absf main_arg9
  let main_cst_16 : FVec F S_ .f32 := constant S_ .f32 0x7F800000#32
  let main_v45 : FVec F S8x16 .f32 := broadcastInDim S8x16 ![] bcast_S_S8x16 main_cst_16
  let main_v46 : IVec S8x16 1 := cmpf .olt main_v44 main_v45
  let main_c_17 : IVec S_ 1 := constantI S_ 1 1#1
  let main_v47 : IVec S_ 1 := (fun x v => Host.reduce IntOp.andi x v reducesTo_S8x16_S_d0_1 h_S_) main_v46 main_c_17
  let main_v48 : IVec S_ 1 := andi main_v43 main_v47
  let main_v49 : FVec F S8 .f32 := Host.absf main_arg10
  let main_cst_18 : FVec F S_ .f32 := constant S_ .f32 0x7F800000#32
  let main_v50 : FVec F S8 .f32 := broadcastInDim S8 ![] bcast_S_S8 main_cst_18
  fn_part3 (F := F) main_arg11 main_arg12 main_arg13 main_arg14 main_v48 main_v49 main_v50

def fn_part1 {F : FTy → Type} [FloatOps F] (main_arg4 : FVec F S42 .f32) (main_arg5 : FVec F S32x42 .f32) (main_arg6 : FVec F S32 .f32) (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) (main_v13 : IVec S_ 1) (main_v16 : IVec S42x84 1) : IVec S_ 1 :=
  let main_c_5 : IVec S_ 1 := constantI S_ 1 1#1
  let main_v17 : IVec S_ 1 := (fun x v => Host.reduce IntOp.andi x v reducesTo_S42x84_S_d0_1 h_S_) main_v16 main_c_5
  let main_v18 : IVec S_ 1 := andi main_v13 main_v17
  let main_v19 : FVec F S42 .f32 := Host.absf main_arg4
  let main_cst_6 : FVec F S_ .f32 := constant S_ .f32 0x7F800000#32
  let main_v20 : FVec F S42 .f32 := broadcastInDim S42 ![] bcast_S_S42 main_cst_6
  let main_v21 : IVec S42 1 := cmpf .olt main_v19 main_v20
  let main_c_7 : IVec S_ 1 := constantI S_ 1 1#1
  let main_v22 : IVec S_ 1 := (fun x v => Host.reduce IntOp.andi x v reducesTo_S42_S_d0 h_S_) main_v21 main_c_7
  let main_v23 : IVec S_ 1 := andi main_v18 main_v22
  let main_v24 : FVec F S32x42 .f32 := Host.absf main_arg5
  let main_cst_8 : FVec F S_ .f32 := constant S_ .f32 0x7F800000#32
  let main_v25 : FVec F S32x42 .f32 := broadcastInDim S32x42 ![] bcast_S_S32x42 main_cst_8
  let main_v26 : IVec S32x42 1 := cmpf .olt main_v24 main_v25
  let main_c_9 : IVec S_ 1 := constantI S_ 1 1#1
  let main_v27 : IVec S_ 1 := (fun x v => Host.reduce IntOp.andi x v reducesTo_S32x42_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S524288x128 .f32) (main_arg1 : FVec F S84x128 .f32) (main_arg2 : FVec F S84 .f32) (main_arg3 : FVec F S42x84 .f32) (main_arg4 : FVec F S42 .f32) (main_arg5 : FVec F S32x42 .f32) (main_arg6 : FVec F S32 .f32) (main_arg7 : FVec F S16x32 .f32) (main_arg8 : FVec F S16 .f32) (main_arg9 : FVec F S8x16 .f32) (main_arg10 : FVec F S8 .f32) (main_arg11 : FVec F S4x8 .f32) (main_arg12 : FVec F S4 .f32) (main_arg13 : FVec F S1x4 .f32) (main_arg14 : FVec F S1 .f32) : IVec S_ 1 :=
  let main_v0 : FVec F S524288x128 .f32 := Host.absf main_arg0
  let main_cst : FVec F S_ .f32 := constant S_ .f32 0x7F800000#32
  let main_v1 : FVec F S524288x128 .f32 := broadcastInDim S524288x128 ![] bcast_S_S524288x128 main_cst
  let main_v2 : IVec S524288x128 1 := cmpf .olt main_v0 main_v1
  let main_c : IVec S_ 1 := constantI S_ 1 1#1
  let main_v3 : IVec S_ 1 := (fun x v => Host.reduce IntOp.andi x v reducesTo_S524288x128_S_d0_1 h_S_) main_v2 main_c
  let main_v4 : FVec F S84x128 .f32 := Host.absf main_arg1
  let main_cst_0 : FVec F S_ .f32 := constant S_ .f32 0x7F800000#32
  let main_v5 : FVec F S84x128 .f32 := broadcastInDim S84x128 ![] bcast_S_S84x128 main_cst_0
  let main_v6 : IVec S84x128 1 := cmpf .olt main_v4 main_v5
  let main_c_1 : IVec S_ 1 := constantI S_ 1 1#1
  let main_v7 : IVec S_ 1 := (fun x v => Host.reduce IntOp.andi x v reducesTo_S84x128_S_d0_1 h_S_) main_v6 main_c_1
  let main_v8 : IVec S_ 1 := andi main_v3 main_v7
  let main_v9 : FVec F S84 .f32 := Host.absf main_arg2
  let main_cst_2 : FVec F S_ .f32 := constant S_ .f32 0x7F800000#32
  let main_v10 : FVec F S84 .f32 := broadcastInDim S84 ![] bcast_S_S84 main_cst_2
  let main_v11 : IVec S84 1 := cmpf .olt main_v9 main_v10
  let main_c_3 : IVec S_ 1 := constantI S_ 1 1#1
  let main_v12 : IVec S_ 1 := (fun x v => Host.reduce IntOp.andi x v reducesTo_S84_S_d0 h_S_) main_v11 main_c_3
  let main_v13 : IVec S_ 1 := andi main_v8 main_v12
  let main_v14 : FVec F S42x84 .f32 := Host.absf main_arg3
  let main_cst_4 : FVec F S_ .f32 := constant S_ .f32 0x7F800000#32
  let main_v15 : FVec F S42x84 .f32 := broadcastInDim S42x84 ![] bcast_S_S42x84 main_cst_4
  let main_v16 : IVec S42x84 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S128x84 : Shape := ⟨2, ![128, 84]⟩
abbrev S84x42 : Shape := ⟨2, ![84, 42]⟩
abbrev S42x32 : Shape := ⟨2, ![42, 32]⟩
abbrev S32x16 : Shape := ⟨2, ![32, 16]⟩
abbrev S16x8 : Shape := ⟨2, ![16, 8]⟩
abbrev S8x4 : Shape := ⟨2, ![8, 4]⟩
abbrev S4x1 : Shape := ⟨2, ![4, 1]⟩
abbrev S1x84 : Shape := ⟨2, ![1, 84]⟩
abbrev S1x42 : Shape := ⟨2, ![1, 42]⟩
abbrev S1x32 : Shape := ⟨2, ![1, 32]⟩
abbrev S1x16 : Shape := ⟨2, ![1, 16]⟩
abbrev S1x8 : Shape := ⟨2, ![1, 8]⟩
abbrev S1x1 : Shape := ⟨2, ![1, 1]⟩
abbrev S524288x1 : Shape := ⟨2, ![524288, 1]⟩
abbrev S8192x128 : Shape := ⟨2, ![8192, 128]⟩
abbrev S8192x1 : Shape := ⟨2, ![8192, 1]⟩
abbrev S8192x84 : Shape := ⟨2, ![8192, 84]⟩
abbrev S8192x42 : Shape := ⟨2, ![8192, 42]⟩
abbrev S8192x32 : Shape := ⟨2, ![8192, 32]⟩
abbrev S8192x16 : Shape := ⟨2, ![8192, 16]⟩
abbrev S8192x8 : Shape := ⟨2, ![8192, 8]⟩
abbrev S8192x4 : Shape := ⟨2, ![8192, 4]⟩

abbrev nBuf : Space → Nat
  | .hbm => 30
  | .vmem => 18
  | .smem => 0
  | _ => 0

abbrev bufTy : (tb : Table) → Fin (tcTables nBuf tb) → BufTy
  | .hbm, ⟨0, _⟩ => ⟨S524288x128, .f32⟩
  | .hbm, ⟨1, _⟩ => ⟨S84x128, .f32⟩
  | .hbm, ⟨2, _⟩ => ⟨S84, .f32⟩
  | .hbm, ⟨3, _⟩ => ⟨S42x84, .f32⟩
  | .hbm, ⟨4, _⟩ => ⟨S42, .f32⟩
  | .hbm, ⟨5, _⟩ => ⟨S32x42, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S4x8, .f32⟩
  | .hbm, ⟨12, _⟩ => ⟨S4, .f32⟩
  | .hbm, ⟨13, _⟩ => ⟨S1x4, .f32⟩
  | .hbm, ⟨14, _⟩ => ⟨S1, .f32⟩
  | .hbm, ⟨15, _⟩ => ⟨S128x84, .f32⟩
  | .hbm, ⟨16, _⟩ => ⟨S84x42, .f32⟩
  | .hbm, ⟨17, _⟩ => ⟨S42x32, .f32⟩
  | .hbm, ⟨18, _⟩ => ⟨S32x16, .f32⟩
  | .hbm, ⟨19, _⟩ => ⟨S16x8, .f32⟩
  | .hbm, ⟨20, _⟩ => ⟨S8x4, .f32⟩
  | .hbm, ⟨21, _⟩ => ⟨S4x1, .f32⟩
  | .hbm, ⟨22, _⟩ => ⟨S1x84, .f32⟩
  | .hbm, ⟨23, _⟩ => ⟨S1x42, .f32⟩
  | .hbm, ⟨24, _⟩ => ⟨S1x32, .f32⟩
  | .hbm, ⟨25, _⟩ => ⟨S1x16, .f32⟩
  | .hbm, ⟨26, _⟩ => ⟨S1x8, .f32⟩
  | .hbm, ⟨27, _⟩ => ⟨S1x4, .f32⟩
  | .hbm, ⟨28, _⟩ => ⟨S1x1, .f32⟩
  | .hbm, ⟨29, _⟩ => ⟨S524288x1, .f32⟩
  | .local _ .vmem, ⟨0, _⟩ => ⟨S8192x128, .f32⟩
  | .local _ .vmem, ⟨1, _⟩ => ⟨S8192x128, .f32⟩
  | .local _ .vmem, ⟨2, _⟩ => ⟨S128x84, .f32⟩
  | .local _ .vmem, ⟨3, _⟩ => ⟨S1x84, .f32⟩
  | .local _ .vmem, ⟨4, _⟩ => ⟨S84x42, .f32⟩
  | .local _ .vmem, ⟨5, _⟩ => ⟨S1x42, .f32⟩
  | .local _ .vmem, ⟨6, _⟩ => ⟨S42x32, .f32⟩
  | .local _ .vmem, ⟨7, _⟩ => ⟨S1x32, .f32⟩
  | .local _ .vmem, ⟨8, _⟩ => ⟨S32x16, .f32⟩
  | .local _ .vmem, ⟨9, _⟩ => ⟨S1x16, .f32⟩
  | .local _ .vmem, ⟨10, _⟩ => ⟨S16x8, .f32⟩
  | .local _ .vmem, ⟨11, _⟩ => ⟨S1x8, .f32⟩
  | .local _ .vmem, ⟨12, _⟩ => ⟨S8x4, .f32⟩
  | .local _ .vmem, ⟨13, _⟩ => ⟨S1x4, .f32⟩
  | .local _ .vmem, ⟨14, _⟩ => ⟨S4x1, .f32⟩
  | .local _ .vmem, ⟨15, _⟩ => ⟨S1x1, .f32⟩
  | .local _ .vmem, ⟨16, _⟩ => ⟨S8192x1, .f32⟩
  | .local _ .vmem, ⟨17, _⟩ => ⟨S8192x1, .f32⟩
  | _, _ => ⟨S524288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x84 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x84 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S84x42 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x42 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S42x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S8192x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

class Facts₀ : Prop where
  transposes_S84x128_S128x84_1_0 : S84x128.Transposes [1, 0] S128x84
  transposes_S42x84_S84x42_1_0 : S42x84.Transposes [1, 0] S84x42
  transposes_S32x42_S42x32_1_0 : S32x42.Transposes [1, 0] S42x32
  transposes_S16x32_S32x16_1_0 : S16x32.Transposes [1, 0] S32x16
  transposes_S8x16_S16x8_1_0 : S8x16.Transposes [1, 0] S16x8
  transposes_S4x8_S8x4_1_0 : S4x8.Transposes [1, 0] S8x4
  transposes_S1x4_S4x1_1_0 : S1x4.Transposes [1, 0] S4x1
  shapeCasts_S84_S1x84 : S84.ShapeCasts S1x84
  shapeCasts_S42_S1x42 : S42.ShapeCasts S1x42
  shapeCasts_S32_S1x32 : S32.ShapeCasts S1x32
  shapeCasts_S16_S1x16 : S16.ShapeCasts S1x16
  shapeCasts_S8_S1x8 : S8.ShapeCasts S1x8
  shapeCasts_S4_S1x4 : S4.ShapeCasts S1x4
  shapeCasts_S1_S1x1 : S1.ShapeCasts S1x1
  inb_S8192x128_S8192x128_0_0 : ∀ a, (![0, 0] : Fin 2 → Nat) a + S8192x128.size a ≤ S8192x128.size a
  h_S8192x128 : 0 < S8192x128.numel
  inb_S128x84_S128x84_0_0 : ∀ a, (![0, 0] : Fin 2 → Nat) a + S128x84.size a ≤ S128x84.size a
  h_S128x84 : 0 < S128x84.numel
  shapeCasts_S128x84_S128x84 : S128x84.ShapeCasts S128x84
  inb_S1x84_S1x84_0_0 : ∀ a, (![0, 0] : Fin 2 → Nat) a + S1x84.size a ≤ S1x84.size a
  h_S1x84 : 0 < S1x84.numel
  shapeCasts_S1x84_S1x84 : S1x84.ShapeCasts S1x84
  broadcasts_S1x84_S8192x84 : S1x84.Broadcasts S8192x84
  inb_S84x42_S84x42_0_0 : ∀ a, (![0, 0] : Fin 2 → Nat) a + S84x42.size a ≤ S84x42.size a
  h_S84x42 : 0 < S84x42.numel
  shapeCasts_S84x42_S84x42 : S84x42.ShapeCasts S84x42
  inb_S1x42_S1x42_0_0 : ∀ a, (![0, 0] : Fin 2 → Nat) a + S1x42.size a ≤ S1x42.size a
  h_S1x42 : 0 < S1x42.numel
  shapeCasts_S1x42_S1x42 : S1x42.ShapeCasts S1x42
  broadcasts_S1x42_S8192x42 : S1x42.Broadcasts S8192x42
  inb_S42x32_S42x32_0_0 : ∀ a, (![0, 0] : Fin 2 → Nat) a + S42x32.size a ≤ S42x32.size a
  h_S42x32 : 0 < S42x32.numel
  shapeCasts_S42x32_S42x32 : S42x32.ShapeCasts S42x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8192x32 : S1x32.Broadcasts S8192x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8192x16 : S1x16.Broadcasts S8192x16
  inb_S16x8_S16x8_0_0 : ∀ a, (![0, 0] : Fin 2 → Nat) a + S16x8.size a ≤ S16x8.size a
  h_S16x8 : 0 < S16x8.numel
  shapeCasts_S16x8_S16x8 : S16x8.ShapeCasts S16x8
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S8192x8 : S1x8.Broadcasts S8192x8
  inb_S8x4_S8x4_0_0 : ∀ a, (![0, 0] : Fin 2 → Nat) a + S8x4.size a ≤ S8x4.size a
  h_S8x4 : 0 < S8x4.numel
  shapeCasts_S8x4_S8x4 : S8x4.ShapeCasts S8x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8192x4 : S1x4.Broadcasts S8192x4
  inb_S4x1_S4x1_0_0 : ∀ a, (![0, 0] : Fin 2 → Nat) a + S4x1.size a ≤ S4x1.size a
  h_S4x1 : 0 < S4x1.numel
  shapeCasts_S4x1_S4x1 : S4x1.ShapeCasts S4x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8192x1 : S1x1.Broadcasts S8192x1
  inb_S8192x1_S8192x1_0_0 : ∀ a, (![0, 0] : Fin 2 → Nat) a + S8192x1.size a ≤ S8192x1.size a
  h_S8192x1 : 0 < S8192x1.numel
  dot_S8192x128_S128x84_S8192x84_1_0_0_1_n_n_wf : DotDims.WF S8192x128 S128x84 S8192x84 [1] [0] [0] [1] [] []
  dot_S8192x84_S84x42_S8192x42_1_0_0_1_n_n_wf : DotDims.WF S8192x84 S84x42 S8192x42 [1] [0] [0] [1] [] []
  dot_S8192x42_S42x32_S8192x32_1_0_0_1_n_n_wf : DotDims.WF S8192x42 S42x32 S8192x32 [1] [0] [0] [1] [] []
  dot_S8192x32_S32x16_S8192x16_1_0_0_1_n_n_wf : DotDims.WF S8192x32 S32x16 S8192x16 [1] [0] [0] [1] [] []
  dot_S8192x16_S16x8_S8192x8_1_0_0_1_n_n_wf : DotDims.WF S8192x16 S16x8 S8192x8 [1] [0] [0] [1] [] []
  dot_S8192x8_S8x4_S8192x4_1_0_0_1_n_n_wf : DotDims.WF S8192x8 S8x4 S8192x4 [1] [0] [0] [1] [] []
  dot_S8192x4_S4x1_S8192x1_1_0_0_1_n_n_wf : DotDims.WF S8192x4 S4x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x84.size a ≤ S128x84.size a
  hwx0_1 : ∀ i : grid0.Coords, EltTy.bits .f32 = 32 ∨ (Rect.block (s := S128x84) S128x84.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x84.size a ≤ S1x84.size a
  hwx0_2 : ∀ i : grid0.Coords, EltTy.bits .f32 = 32 ∨ (Rect.block (s := S1x84) S1x84.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S84x42.size a ≤ S84x42.size a
  hwx0_3 : ∀ i : grid0.Coords, EltTy.bits .f32 = 32 ∨ (Rect.block (s := S84x42) S84x42.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x42.size a ≤ S1x42.size a
  hwx0_4 : ∀ i : grid0.Coords, EltTy.bits .f32 = 32 ∨ (Rect.block (s := S1x42) S1x42.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S42x32.size a ≤ S42x32.size a
  hwx0_5 : ∀ i : grid0.Coords, EltTy.bits .f32 = 32 ∨ (Rect.block (s := S42x32) S42x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x16.size a ≤ S32x16.size a
  hwx0_7 : ∀ i : grid0.Coords, EltTy.bits .f32 = 32 ∨ (Rect.block (s := S32x16) S32x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x8.size a ≤ S16x8.size a
  hwx0_9 : ∀ i : grid0.Coords, EltTy.bits .f32 = 32 ∨ (Rect.block (s := S16x8) S16x8.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x8.size a ≤ S1x8.size a
  hwx0_10 : ∀ i : grid0.Coords, EltTy.bits .f32 = 32 ∨ (Rect.block (s := S1x8) S1x8.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S8x4.size a ≤ S8x4.size a
  hwx0_11 : ∀ i : grid0.Coords, EltTy.bits .f32 = 32 ∨ (Rect.block (s := S8x4) S8x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x4.size a ≤ S1x4.size a
  hwx0_12 : ∀ i : grid0.Coords, EltTy.bits .f32 = 32 ∨ (Rect.block (s := S1x4) S1x4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S4x1.size a ≤ S4x1.size a
  hwx0_13 : ∀ i : grid0.Coords, EltTy.bits .f32 = 32 ∨ (Rect.block (s := S4x1) S4x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S8192x1.size a ≤ S524288x1.size a
  hwx0_15 : ∀ i : grid0.Coords, EltTy.bits .f32 = 32 ∨ (Rect.block (s := S524288x1) S8192x1.size (cc0_transform_15 i) (hinb0_15 i)).WholeWords (EltTy.packing .f32)

variable [Facts₀]

def dot_S8192x128_S128x84_S8192x84_1_0_0_1_n_n : DotDims S8192x128 S128x84 S8192x84 where
  lhsContracting := [1]
  rhsContracting := [0]
  lhsNonContracting := [0]
  rhsNonContracting := [1]
  lhsBatch := []
  rhsBatch := []
  wf := dot_S8192x128_S128x84_S8192x84_1_0_0_1_n_n_wf
def dot_S8192x84_S84x42_S8192x42_1_0_0_1_n_n : DotDims S8192x84 S84x42 S8192x42 where
  lhsContracting := [1]
  rhsContracting := [0]
  lhsNonContracting := [0]
  rhsNonContracting := [1]
  lhsBatch := []
  rhsBatch := []
  wf := dot_S8192x84_S84x42_S8192x42_1_0_0_1_n_n_wf
def dot_S8192x42_S42x32_S8192x32_1_0_0_1_n_n : DotDims S8192x42 S42x32 S8192x32 where
  lhsContracting := [1]
  rhsContracting := [0]
  lhsNonContracting := [0]
  rhsNonContracting := [1]
  lhsBatch := []
  rhsBatch := []
  wf := dot_S8192x42_S42x32_S8192x32_1_0_0_1_n_n_wf
def dot_S8192x32_S32x16_S8192x16_1_0_0_1_n_n : DotDims S8192x32 S32x16 S8192x16 where
  lhsContracting := [1]
  rhsContracting := [0]
  lhsNonContracting := [0]
  rhsNonContracting := [1]
  lhsBatch := []
  rhsBatch := []
  wf := dot_S8192x32_S32x16_S8192x16_1_0_0_1_n_n_wf
def dot_S8192x16_S16x8_S8192x8_1_0_0_1_n_n : DotDims S8192x16 S16x8 S8192x8 where
  lhsContracting := [1]
  rhsContracting := [0]
  lhsNonContracting := [0]
  rhsNonContracting := [1]
  lhsBatch := []
  rhsBatch := []
  wf := dot_S8192x16_S16x8_S8192x8_1_0_0_1_n_n_wf
def dot_S8192x8_S8x4_S8192x4_1_0_0_1_n_n : DotDims S8192x8 S8x4 S8192x4 where
  lhsContracting := [1]
  rhsContracting := [0]
  lhsNonContracting := [0]
  rhsNonContracting := [1]
  lhsBatch := []
  rhsBatch := []
  wf := dot_S8192x8_S8x4_S8192x4_1_0_0_1_n_n_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x84.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x84.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S84x42.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x42.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S42x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S32x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S16x8.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x8.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S8x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6) S4x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v13) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v14) S8192x1.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S524288x128 : Shape := ⟨2, ![524288, 128]⟩
abbrev S84x128 : Shape := ⟨2, ![84, 128]⟩
abbrev S84 : Shape := ⟨1, ![84]⟩
abbrev S42x84 : Shape := ⟨2, ![42, 84]⟩
abbrev S42 : Shape := ⟨1, ![42]⟩
abbrev S32x42 : Shape := ⟨2, ![32, 42]⟩
abbrev S32 : Shape := ⟨1, ![32]⟩
abbrev S16x32 : Shape := ⟨2, ![16, 32]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x4 : Shape := ⟨2, ![1, 4]⟩
abbrev S1 : Shape := ⟨1, ![1]⟩
abbrev S128x84 : Shape := ⟨2, ![128, 84]⟩
abbrev S524288x84 : Shape := ⟨2, ![524288, 84]⟩
abbrev S1x84 : Shape := ⟨2, ![1, 84]⟩
abbrev S_ : Shape := ⟨0, ![]⟩
abbrev S84x42 : Shape := ⟨2, ![84, 42]⟩
abbrev S524288x42 : Shape := ⟨2, ![524288, 42]⟩
abbrev S1x42 : Shape := ⟨2, ![1, 42]⟩
abbrev S42x32 : Shape := ⟨2, ![42, 32]⟩
abbrev S524288x32 : Shape := ⟨2, ![524288, 32]⟩
abbrev S1x32 : Shape := ⟨2, ![1, 32]⟩
abbrev S32x16 : Shape := ⟨2, ![32, 16]⟩
abbrev S524288x16 : Shape := ⟨2, ![524288, 16]⟩
abbrev S1x16 : Shape := ⟨2, ![1, 16]⟩
abbrev S16x8 : Shape := ⟨2, ![16, 8]⟩
abbrev S524288x8 : Shape := ⟨2, ![524288, 8]⟩
abbrev S1x8 : Shape := ⟨2, ![1, 8]⟩
abbrev S8x4 : Shape := ⟨2, ![8, 4]⟩
abbrev S524288x4 : Shape := ⟨2, ![524288, 4]⟩
abbrev S4x1 : Shape := ⟨2, ![4, 1]⟩
abbrev S524288x1 : Shape := ⟨2, ![524288, 1]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S524288x128, .f32⟩
  | .hbm, ⟨1, _⟩ => ⟨S84x128, .f32⟩
  | .hbm, ⟨2, _⟩ => ⟨S84, .f32⟩
  | .hbm, ⟨3, _⟩ => ⟨S42x84, .f32⟩
  | .hbm, ⟨4, _⟩ => ⟨S42, .f32⟩
  | .hbm, ⟨5, _⟩ => ⟨S32x42, .f32⟩
  | .hbm, ⟨6, _⟩ => ⟨S32, .f32⟩
  | .hbm, ⟨7, _⟩ => ⟨S16x32, .f32⟩
  | .hbm, ⟨8, _⟩ => ⟨S16, .f32⟩
  | .hbm, ⟨9, _⟩ => ⟨S8x16, .f32⟩
  | .hbm, ⟨10, _⟩ => ⟨S8, .f32⟩
  | .hbm, ⟨11, _⟩ => ⟨S4x8, .f32⟩
  | .hbm, ⟨12, _⟩ => ⟨S4, .f32⟩
  | .hbm, ⟨13, _⟩ => ⟨S1x4, .f32⟩
  | .hbm, ⟨14, _⟩ => ⟨S1, .f32⟩
  | .hbm, ⟨15, _⟩ => ⟨S128x84, .f32⟩
  | .hbm, ⟨16, _⟩ => ⟨S524288x84, .f32⟩
  | .hbm, ⟨17, _⟩ => ⟨S1x84, .f32⟩
  | .hbm, ⟨18, _⟩ => ⟨S524288x84, .f32⟩
  | .hbm, ⟨19, _⟩ => ⟨S524288x84, .f32⟩
  | .hbm, ⟨20, _⟩ => ⟨S_, .f32⟩
  | .hbm, ⟨21, _⟩ => ⟨S524288x84, .f32⟩
  | .hbm, ⟨22, _⟩ => ⟨S524288x84, .f32⟩
  | .hbm, ⟨23, _⟩ => ⟨S84x42, .f32⟩
  | .hbm, ⟨24, _⟩ => ⟨S524288x42, .f32⟩
  | .hbm, ⟨25, _⟩ => ⟨S1x42, .f32⟩
  | .hbm, ⟨26, _⟩ => ⟨S524288x42, .f32⟩
  | .hbm, ⟨27, _⟩ => ⟨S524288x42, .f32⟩
  | .hbm, ⟨28, _⟩ => ⟨S_, .f32⟩
  | .hbm, ⟨29, _⟩ => ⟨S524288x42, .f32⟩
  | .hbm, ⟨30, _⟩ => ⟨S524288x42, .f32⟩
  | .hbm, ⟨31, _⟩ => ⟨S42x32, .f32⟩
  | .hbm, ⟨32, _⟩ => ⟨S524288x32, .f32⟩
  | .hbm, ⟨33, _⟩ => ⟨S1x32, .f32⟩
  | .hbm, ⟨34, _⟩ => ⟨S524288x32, .f32⟩
  | .hbm, ⟨35, _⟩ => ⟨S524288x32, .f32⟩
  | .hbm, ⟨36, _⟩ => ⟨S_, .f32⟩
  | .hbm, ⟨37, _⟩ => ⟨S524288x32, .f32⟩
  | .hbm, ⟨38, _⟩ => ⟨S524288x32, .f32⟩
  | .hbm, ⟨39, _⟩ => ⟨S32x16, .f32⟩
  | .hbm, ⟨40, _⟩ => ⟨S524288x16, .f32⟩
  | .hbm, ⟨41, _⟩ => ⟨S1x16, .f32⟩
  | .hbm, ⟨42, _⟩ => ⟨S524288x16, .f32⟩
  | .hbm, ⟨43, _⟩ => ⟨S524288x16, .f32⟩
  | .hbm, ⟨44, _⟩ => ⟨S_, .f32⟩
  | .hbm, ⟨45, _⟩ => ⟨S524288x16, .f32⟩
  | .hbm, ⟨46, _⟩ => ⟨S524288x16, .f32⟩
  | .hbm, ⟨47, _⟩ => ⟨S16x8, .f32⟩
  | .hbm, ⟨48, _⟩ => ⟨S524288x8, .f32⟩
  | .hbm, ⟨49, _⟩ => ⟨S1x8, .f32⟩
  | .hbm, ⟨50, _⟩ => ⟨S524288x8, .f32⟩
  | .hbm, ⟨51, _⟩ => ⟨S524288x8, .f32⟩
  | .hbm, ⟨52, _⟩ => ⟨S_, .f32⟩
  | .hbm, ⟨53, _⟩ => ⟨S524288x8, .f32⟩
  | .hbm, ⟨54, _⟩ => ⟨S524288x8, .f32⟩
  | .hbm, ⟨55, _⟩ => ⟨S8x4, .f32⟩
  | .hbm, ⟨56, _⟩ => ⟨S524288x4, .f32⟩
  | .hbm, ⟨57, _⟩ => ⟨S1x4, .f32⟩
  | .hbm, ⟨58, _⟩ => ⟨S524288x4, .f32⟩
  | .hbm, ⟨59, _⟩ => ⟨S524288x4, .f32⟩
  | .hbm, ⟨60, _⟩ => ⟨S_, .f32⟩
  | .hbm, ⟨61, _⟩ => ⟨S524288x4, .f32⟩
  | .hbm, ⟨62, _⟩ => ⟨S524288x4, .f32⟩
  | .hbm, ⟨63, _⟩ => ⟨S4x1, .f32⟩
  | .hbm, ⟨64, _⟩ => ⟨S524288x1, .f32⟩
  | .hbm, ⟨65, _⟩ => ⟨S1x1, .f32⟩
  | .hbm, ⟨66, _⟩ => ⟨S524288x1, .f32⟩
  | .hbm, ⟨67, _⟩ => ⟨S524288x1, .f32⟩
  | _, _ => ⟨S524288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_call1_cst : Ref sig .tc := ⟨.hbm, 28, rfl⟩
abbrev main_call1_v0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_call4_cst : Ref sig .tc := ⟨.hbm, 52, rfl⟩
abbrev main_call4_v0 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_call5_cst : Ref sig .tc := ⟨.hbm, 60, rfl⟩
abbrev main_call5_v0 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩

abbrev nD : Nat := 1
abbrev τ : Topo := Topo.v7x

variable {F : FTy → Type} [FloatOps F]

class Facts₀ : Prop where
  transposes_S84x128_S128x84_1_0 : S84x128.Transposes [1, 0] S128x84
  bcast_S84_S1x84_1 : S84.BroadcastsInDim S1x84 (![1] : Fin 1 → Fin S1x84.rank)
  bcast_S1x84_S524288x84_0_1 : S1x84.BroadcastsInDim S524288x84 (![0, 1] : Fin 2 → Fin S524288x84.rank)
  bcast_S_S524288x84 : S_.BroadcastsInDim S524288x84 (![] : Fin 0 → Fin S524288x84.rank)
  transposes_S42x84_S84x42_1_0 : S42x84.Transposes [1, 0] S84x42
  bcast_S42_S1x42_1 : S42.BroadcastsInDim S1x42 (![1] : Fin 1 → Fin S1x42.rank)
  bcast_S1x42_S524288x42_0_1 : S1x42.BroadcastsInDim S524288x42 (![0, 1] : Fin 2 → Fin S524288x42.rank)
  bcast_S_S524288x42 : S_.BroadcastsInDim S524288x42 (![] : Fin 0 → Fin S524288x42.rank)
  transposes_S32x42_S42x32_1_0 : S32x42.Transposes [1, 0] S42x32
  bcast_S32_S1x32_1 : S32.BroadcastsInDim S1x32 (![1] : Fin 1 → Fin S1x32.rank)
  bcast_S1x32_S524288x32_0_1 : S1x32.BroadcastsInDim S524288x32 (![0, 1] : Fin 2 → Fin S524288x32.rank)
  bcast_S_S524288x32 : S_.BroadcastsInDim S524288x32 (![] : Fin 0 → Fin S524288x32.rank)
  transposes_S16x32_S32x16_1_0 : S16x32.Transposes [1, 0] S32x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  transposes_S8x16_S16x8_1_0 : S8x16.Transposes [1, 0] S16x8
  bcast_S8_S1x8_1 : S8.BroadcastsInDim S1x8 (![1] : Fin 1 → Fin S1x8.rank)
  bcast_S1x8_S524288x8_0_1 : S1x8.BroadcastsInDim S524288x8 (![0, 1] : Fin 2 → Fin S524288x8.rank)
  bcast_S_S524288x8 : S_.BroadcastsInDim S524288x8 (![] : Fin 0 → Fin S524288x8.rank)
  transposes_S4x8_S8x4_1_0 : S4x8.Transposes [1, 0] S8x4
  bcast_S4_S1x4_1 : S4.BroadcastsInDim S1x4 (![1] : Fin 1 → Fin S1x4.rank)
  bcast_S1x4_S524288x4_0_1 : S1x4.BroadcastsInDim S524288x4 (![0, 1] : Fin 2 → Fin S524288x4.rank)
  bcast_S_S524288x4 : S_.BroadcastsInDim S524288x4 (![] : Fin 0 → Fin S524288x4.rank)
  transposes_S1x4_S4x1_1_0 : S1x4.Transposes [1, 0] S4x1
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  dot_S524288x128_S128x84_S524288x84_1_0_0_1_n_n_wf : DotDims.WF S524288x128 S128x84 S524288x84 [1] [0] [0] [1] [] []
  dot_S524288x84_S84x42_S524288x42_1_0_0_1_n_n_wf : DotDims.WF S524288x84 S84x42 S524288x42 [1] [0] [0] [1] [] []
  dot_S524288x42_S42x32_S524288x32_1_0_0_1_n_n_wf : DotDims.WF S524288x42 S42x32 S524288x32 [1] [0] [0] [1] [] []
  dot_S524288x32_S32x16_S524288x16_1_0_0_1_n_n_wf : DotDims.WF S524288x32 S32x16 S524288x16 [1] [0] [0] [1] [] []
  dot_S524288x16_S16x8_S524288x8_1_0_0_1_n_n_wf : DotDims.WF S524288x16 S16x8 S524288x8 [1] [0] [0] [1] [] []
  dot_S524288x8_S8x4_S524288x4_1_0_0_1_n_n_wf : DotDims.WF S524288x8 S8x4 S524288x4 [1] [0] [0] [1] [] []
  dot_S524288x4_S4x1_S524288x1_1_0_0_1_n_n_wf : DotDims.WF S524288x4 S4x1 S524288x1 [1] [0] [0] [1] [] []

variable [Facts₀]

def dot_S524288x128_S128x84_S524288x84_1_0_0_1_n_n : DotDims S524288x128 S128x84 S524288x84 where
  lhsContracting := [1]
  rhsContracting := [0]
  lhsNonContracting := [0]
  rhsNonContracting := [1]
  lhsBatch := []
  rhsBatch := []
  wf := dot_S524288x128_S128x84_S524288x84_1_0_0_1_n_n_wf
def dot_S524288x84_S84x42_S524288x42_1_0_0_1_n_n : DotDims S524288x84 S84x42 S524288x42 where
  lhsContracting := [1]
  rhsContracting := [0]
  lhsNonContracting := [0]
  rhsNonContracting := [1]
  lhsBatch := []
  rhsBatch := []
  wf := dot_S524288x84_S84x42_S524288x42_1_0_0_1_n_n_wf
def dot_S524288x42_S42x32_S524288x32_1_0_0_1_n_n : DotDims S524288x42 S42x32 S524288x32 where
  lhsContracting := [1]
  rhsContracting := [0]
  lhsNonContracting := [0]
  rhsNonContracting := [1]
  lhsBatch := []
  rhsBatch := []
  wf := dot_S524288x42_S42x32_S524288x32_1_0_0_1_n_n_wf
def dot_S524288x32_S32x16_S524288x16_1_0_0_1_n_n : DotDims S524288x32 S32x16 S524288x16 where
  lhsContracting := [1]
  rhsContracting := [0]
  lhsNonContracting := [0]
  rhsNonContracting := [1]
  lhsBatch := []
  rhsBatch := []
  wf := dot_S524288x32_S32x16_S524288x16_1_0_0_1_n_n_wf
def dot_S524288x16_S16x8_S524288x8_1_0_0_1_n_n : DotDims S524288x16 S16x8 S524288x8 where
  lhsContracting := [1]
  rhsContracting := [0]
  lhsNonContracting := [0]
  rhsNonContracting := [1]
  lhsBatch := []
  rhsBatch := []
  wf := dot_S524288x16_S16x8_S524288x8_1_0_0_1_n_n_wf
def dot_S524288x8_S8x4_S524288x4_1_0_0_1_n_n : DotDims S524288x8 S8x4 S524288x4 where
  lhsContracting := [1]
  rhsContracting := [0]
  lhsNonContracting := [0]
  rhsNonContracting := [1]
  lhsBatch := []
  rhsBatch := []
  wf := dot_S524288x8_S8x4_S524288x4_1_0_0_1_n_n_wf
def dot_S524288x4_S4x1_S524288x1_1_0_0_1_n_n : DotDims S524288x4 S4x1 S524288x1 where
  lhsContracting := [1]
  rhsContracting := [0]
  lhsNonContracting := [0]
  rhsNonContracting := [1]
  lhsBatch := []
  rhsBatch := []
  wf := dot_S524288x4_S4x1_S524288x1_1_0_0_1_n_n_wf

class Facts : Prop extends Facts₀ where

variable [Facts]
-- ==== Proof.LibPlainDot.lean ====
/-
  A plain two-dimensional matrix product read at an entry.

  For a dot whose dimension numbers are those of `rows × contraction` times `contraction × columns` — left
  contracting axis 1, right contracting axis 0, the remaining left axis then the remaining right axis as the result's
  axes, no batch axis — the left operand's index at result entry `(p, q)` and contraction position `k` is `(p, k)`,
  the right operand's is `(k, q)`. So, on the extended reals, a kernel's `matmul` into the zero accumulator and a
  host `dot_general` are both the textbook sum `∑ k, l (p, k) * r (k, q)` over `k : Fin K`.

  The dimension record is a variable; its printed fields enter as hypotheses (each is `rfl` for a printed record).
-/
import Idealize.ShloMosaic.PureOps.Ideal
import Idealize.ShloMosaic.PureOps.Ideal.Laws
import Idealize.ShloMosaic.Lib.ValueIdx

noncomputable section

namespace Cert.PlainDot

open Idealize.ShloMosaic Idealize.ShloMosaic.ValueIdx

variable {R K C : ℕ} (d : DotDims (⟨2, ![R, K]⟩ : Shape) (⟨2, ![K, C]⟩ : Shape) (⟨2, ![R, C]⟩ : Shape))

/-- A coordinate of an index depends only on the axis' position. -/
private theorem coord_congr {s : Shape} (j : s.Idx) (p q : ℕ) (hp : p < s.rank) (hq : q < s.rank) (h : p = q) :
    (j ⟨p, hp⟩).val = (j ⟨q, hq⟩).val := by subst h; rfl

/-- The left operand's row is the result's row. -/
theorem lhs_row (hlb : d.lhsBatch = []) (hln : d.lhsNonContracting = [0])
    (j : (⟨2, ![R, C]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The left operand's column is the contraction position. -/
theorem lhs_col (hlc : d.lhsContracting = [1]) (j : (⟨2, ![R, C]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![R, C]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0]) (hrn : d.rhsNonContracting = [1])
    (j : (⟨2, ![R, C]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- The contraction shape has one axis, of extent `K`. -/
theorem contr_rank (hlc : d.lhsContracting = [1]) : d.contr.rank = 1 := by rw [d.rank_contr, hlc]; rfl

theorem contr_size (hlc : d.lhsContracting = [1]) :
    d.contr.size ⟨0, by rw [contr_rank d hlc]; exact Nat.one_pos⟩ = K := by
  rw [d.size_contr 0 (by rw [hlc]; exact Nat.one_pos)]
  simp [hlc]

/-- THE SUM over the dot's own contraction index, re-indexed by `k : Fin K` with the operands read at `(p, k)` and `(k, q)`. -/
theorem sum_contr (hlc : d.lhsContracting = [1]) (hrc : d.rhsContracting = [0]) (hln : d.lhsNonContracting = [0])
    (hrn : d.rhsNonContracting = [1]) (hlb : d.lhsBatch = []) (hrb : d.rhsBatch = [])
    (l : (⟨2, ![R, K]⟩ : Shape).Idx → EReal) (r : (⟨2, ![K, C]⟩ : Shape).Idx → EReal) (p : Fin R) (q : Fin C) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank d hlc) (contr_size d hlc)).symm]
  refine Finset.sum_congr rfl fun k _ => ?_
  have hk := contrEquiv1_symm_val d K (contr_rank d hlc) (contr_size d hlc) k
  have el : d.lhsIdx (ix2 p q) ((contrEquiv1 d K (contr_rank d hlc) (contr_size d hlc)).symm k) = ix2 p k := by
    funext a; apply Fin.ext
    match a with
    | ⟨0, _⟩ => exact lhs_row d hlb hln _ _
    | ⟨1, _⟩ => exact (lhs_col d hlc _ _).trans hk
  have er : d.rhsIdx (ix2 p q) ((contrEquiv1 d K (contr_rank d hlc) (contr_size d hlc)).symm k) = ix2 k q := by
    funext a; apply Fin.ext
    match a with
    | ⟨0, _⟩ => exact (rhs_row d hrc _ _).trans hk
    | ⟨1, _⟩ => exact rhs_col d hlb hrb hln hrn _ _
  rw [el, er]

/-- A kernel's matrix product into the zero accumulator, at an entry, on the extended reals. -/
theorem matmul_zero_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision)
    (l : FVec Ideal (⟨2, ![R, K]⟩ : Shape) φ₁) (r : FVec Ideal (⟨2, ![K, C]⟩ : Shape) φ₂) (p : Fin R) (q : Fin C) :
    FloatOps.matmul d prec l r (constant (⟨2, ![R, C]⟩ : Shape) .f32 0x00000000#32) (ix2 p q) = ∑ k : Fin K, l (ix2 p k) * r (ix2 k q) :=
  (Ideal.matmul_constant_zero_apply d prec l r (ix2 p q)).trans (sum_contr d hlc hrc hln hrn hlb hrb l r p q)

/-- The host's `dot_general`, at an entry, on the extended reals: the same sum. -/
theorem dotGeneral_apply {φ₁ φ₂ : FTy} (hlc : d.lhsContracting = [1]) (hrc : d.rhsContracting = [0]) (hln : d.lhsNonContracting = [0])
    (hrn : d.rhsNonContracting = [1]) (hlb : d.lhsBatch = []) (hrb : d.rhsBatch = []) (prec : Option ContractPrecision) (sched : HostSchedule)
    (l : FVec Ideal (⟨2, ![R, K]⟩ : Shape) φ₁) (r : FVec Ideal (⟨2, ![K, C]⟩ : Shape) φ₂) (p : Fin R) (q : Fin C) :
    FloatOps.dotGeneral d prec sched l r (ix2 p q) = ∑ k : Fin K, l (ix2 p k) * r (ix2 k q) :=
  (Ideal.dotGeneral_apply d prec sched l r (ix2 p q)).trans (sum_contr d hlc hrc hln hrn hlb hrb l r p q)

end Cert.PlainDot

end
-- ==== Proof.LibDenseRows.lean ====
/-
  Dense layers, row by row.

  A dense layer sends a row `h : Fin K → EReal` to the row `q ↦ ∑ k, h k * w (k, q) + b q` (`affine`), optionally
  followed by the positive part `max · 0` (`affineRelu`). Applied to a matrix it acts on every row independently
  (`onRows`): entry `(p, q)` of the result depends on row `p` of the operand only. Two row-wise maps compose to a
  row-wise map (`onRows_onRows`), so a chain of dense layers is ONE row function applied to every row.

  On the extended reals both spellings of a layer are this map: a kernel's matrix product into the zero accumulator
  plus a `[1, C]` bias row broadcast down the rows, and a host `dot_general` plus a `[C]` bias broadcast first to
  `[1, C]` and then down the rows; the positive part is `maximumf` against a splat of the zero word in both.
  The matrix product at an entry is the textbook sum (the plain-dot lemmas); everything else is a layout operation read
  at an index. Row count, contraction length and column count are variables; the dimension record's printed fields
  enter as hypotheses.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«139796_j62766652064010_1_alg».proof.Proof.LibPlainDot

noncomputable section

namespace Cert.DenseRows

open Idealize.ShloMosaic Idealize.ShloMosaic.ValueIdx

/-! ## Row functions -/

/-- One dense layer on a row: `q ↦ ∑ k, h k * w (k, q) + b q`. -/
def affine {K C : ℕ} (w : (⟨2, ![K, C]⟩ : Shape).Idx → EReal) (b : Fin C → EReal) (h : Fin K → EReal) : Fin C → EReal :=
  fun q => ∑ k : Fin K, h k * w (ix2 k q) + b q

/-- A dense layer followed by the positive part. -/
def affineRelu {K C : ℕ} (w : (⟨2, ![K, C]⟩ : Shape).Idx → EReal) (b : Fin C → EReal) (h : Fin K → EReal) : Fin C → EReal :=
  fun q => max (affine w b h q) 0

/-- A row function applied to every row of a matrix: entry `(p, q)` is `f (row p of x) q`. -/
def onRows {R K C : ℕ} (f : (Fin K → EReal) → Fin C → EReal) (x : (⟨2, ![R, K]⟩ : Shape).Idx → EReal) :
    (⟨2, ![R, C]⟩ : Shape).Idx → EReal :=
  fun i => f (fun k => x (ix2 (n0 := R) (i 0) k)) (i 1)

theorem onRows_apply {R K C : ℕ} (f : (Fin K → EReal) → Fin C → EReal) (x : (⟨2, ![R, K]⟩ : Shape).Idx → EReal)
    (p : Fin R) (q : Fin C) : onRows f x (ix2 p q) = f (fun k => x (ix2 p k)) q := rfl

/-- Row-wise maps compose row-wise. -/
theorem onRows_onRows {R K C D : ℕ} (f : (Fin K → EReal) → Fin C → EReal) (g : (Fin C → EReal) → Fin D → EReal)
    (x : (⟨2, ![R, K]⟩ : Shape).Idx → EReal) : onRows g (onRows f x) = onRows (fun h => g (f h)) x := rfl

/-! ## Layout pieces -/

/-- A `[C]` array reshaped to `[1, C]` reads, at `(0, q)`, the array at `q`. -/
theorem reshape_row_apply {α : Type} {C : ℕ} (b : (⟨1, ![C]⟩ : Shape).Idx → α)
    (h : (⟨1, ![C]⟩ : Shape).ShapeCasts ⟨2, ![1, C]⟩) (q : Fin C) :
    shapeCast ⟨2, ![1, C]⟩ b h (ix2 (0 : Fin 1) q) = b (ix1 q) := by
  refine shapeCast_apply b h (ix2 (0 : Fin 1) q) (ix1 q) ?_
  rw [Shape.rowMajor_val_one, Shape.rowMajor_val_two]
  show q.val = (0 : ℕ) * C + q.val
  omega

/-- A `[C]` array broadcast to `[1, C]` along axis 1 and then to `[R, C]` along both axes reads, at `(p, q)`, the array at `q`. -/
theorem bias_bcast_apply {α : Type} {R C : ℕ} (b : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (q : Fin C) :
    broadcastInDim ⟨2, ![R, C]⟩ ![0, 1] h2 (broadcastInDim ⟨2, ![1, C]⟩ ![1] h1 b) (ix2 p q) = b (ix1 q) := by
  rw [broadcastInDim_apply ![0, 1] h2 _ (ix2 p q) (ix2 (0 : Fin 1) q) (fun a => by
        match a with
        | ⟨0, _⟩ => rfl
        | ⟨1, _⟩ =>
          show q.val = if C = 1 then 0 else q.val
          split
          · have := q.isLt; omega
          · rfl),
      broadcastInDim_apply ![1] h1 b (ix2 (0 : Fin 1) q) (ix1 q) (fun a => by
        match a with
        | ⟨0, _⟩ =>
          show q.val = if C = 1 then 0 else q.val
          split
          · have := q.isLt; omega
          · rfl)]

/-- A `[1, C]` bias row as a function of the column. -/
abbrev row {C : ℕ} (b : (⟨2, ![1, C]⟩ : Shape).Idx → EReal) : Fin C → EReal := fun q => b (ix2 (0 : Fin 1) q)

/-- A `[C]` bias as a function of the column. -/
abbrev col {C : ℕ} (b : (⟨1, ![C]⟩ : Shape).Idx → EReal) : Fin C → EReal := fun q => b (ix1 q)

/-- The row of a bias reshaped to `[1, C]` is the bias. -/
theorem row_reshape {C : ℕ} (b : (⟨1, ![C]⟩ : Shape).Idx → EReal) (h : (⟨1, ![C]⟩ : Shape).ShapeCasts ⟨2, ![1, C]⟩) :
    row (shapeCast ⟨2, ![1, C]⟩ b h) = col b :=
  funext fun q => reshape_row_apply b h q

/-! ## One layer, in the kernel's spelling and in the host's -/

section Layer

variable {R K C : ℕ} (d : DotDims (⟨2, ![R, K]⟩ : Shape) (⟨2, ![K, C]⟩ : Shape) (⟨2, ![R, C]⟩ : Shape))
  (hlc : d.lhsContracting = [1]) (hrc : d.rhsContracting = [0]) (hln : d.lhsNonContracting = [0])
  (hrn : d.rhsNonContracting = [1]) (hlb : d.lhsBatch = []) (hrb : d.rhsBatch = [])
include hlc hrc hln hrn hlb hrb

/-- The kernel's layer without the positive part: the product into the zero accumulator plus the bias row broadcast
    down the rows (the weight block and the bias row each passed through a shape cast to their own shape). -/
theorem kernel_affine (prec : Option ContractPrecision) (h : FVec Ideal (⟨2, ![R, K]⟩ : Shape) .f32)
    (w : FVec Ideal (⟨2, ![K, C]⟩ : Shape) .f32) (brow : FVec Ideal (⟨2, ![1, C]⟩ : Shape) .f32)
    (hw : (⟨2, ![K, C]⟩ : Shape).ShapeCasts ⟨2, ![K, C]⟩) (hb : (⟨2, ![1, C]⟩ : Shape).ShapeCasts ⟨2, ![1, C]⟩)
    (hbc : (⟨2, ![1, C]⟩ : Shape).Broadcasts ⟨2, ![R, C]⟩) :
    addf (matmul d prec h (shapeCast (⟨2, ![K, C]⟩ : Shape) w hw) (constant (⟨2, ![R, C]⟩ : Shape) .f32 0x00000000#32))
        (broadcastTo (⟨2, ![R, C]⟩ : Shape) (shapeCast (⟨2, ![1, C]⟩ : Shape) brow hb) hbc)
      = onRows (affine w fun q => brow (ix2 (0 : Fin 1) q)) h := by
  rw [shapeCast_self, shapeCast_self]
  funext i
  obtain ⟨p, q, rfl⟩ : ∃ (p : Fin R) (q : Fin C), i = ix2 p q := ⟨i 0, i 1, eq_ix2 i⟩
  rw [addf_apply, broadcastTo_1b_ab_apply]
  show FloatOps.matmul d prec h w (constant (⟨2, ![R, C]⟩ : Shape) .f32 0x00000000#32) (ix2 p q) + _ = _
  rw [PlainDot.matmul_zero_apply d hlc hrc hln hrn hlb hrb]
  rfl

/-- The kernel's layer with the positive part: `maximumf` against a splat of the zero word. -/
theorem kernel_affineRelu (prec : Option ContractPrecision) (h : FVec Ideal (⟨2, ![R, K]⟩ : Shape) .f32)
    (w : FVec Ideal (⟨2, ![K, C]⟩ : Shape) .f32) (brow : FVec Ideal (⟨2, ![1, C]⟩ : Shape) .f32)
    (hw : (⟨2, ![K, C]⟩ : Shape).ShapeCasts ⟨2, ![K, C]⟩) (hb : (⟨2, ![1, C]⟩ : Shape).ShapeCasts ⟨2, ![1, C]⟩)
    (hbc : (⟨2, ![1, C]⟩ : Shape).Broadcasts ⟨2, ![R, C]⟩) :
    maximumf (addf (matmul d prec h (shapeCast (⟨2, ![K, C]⟩ : Shape) w hw) (constant (⟨2, ![R, C]⟩ : Shape) .f32 0x00000000#32))
        (broadcastTo (⟨2, ![R, C]⟩ : Shape) (shapeCast (⟨2, ![1, C]⟩ : Shape) brow hb) hbc))
        (broadcast (⟨2, ![R, C]⟩ : Shape) (Scalar.ofBits (F := Ideal) .f32 0x00000000#32))
      = onRows (affineRelu w fun q => brow (ix2 (0 : Fin 1) q)) h := by
  rw [kernel_affine d hlc hrc hln hrn hlb hrb]
  funext i
  rw [maximumf_apply, broadcast_apply]
  show max _ (Ideal.ofBits .f32 0x00000000#32) = _
  rw [Ideal.ofBits_zero_f32]
  rfl

/-- The host's layer without the positive part: `dot_general` plus the bias broadcast to `[1, C]` and then down the rows. -/
theorem host_affine (prec : Option ContractPrecision) (h : FVec Ideal (⟨2, ![R, K]⟩ : Shape) .f32)
    (w : FVec Ideal (⟨2, ![K, C]⟩ : Shape) .f32) (b : FVec Ideal (⟨1, ![C]⟩ : Shape) .f32)
    (h1 : (⟨1, ![C]⟩ : Shape).BroadcastsInDim ⟨2, ![1, C]⟩ ![1])
    (h2 : (⟨2, ![1, C]⟩ : Shape).BroadcastsInDim ⟨2, ![R, C]⟩ ![0, 1]) :
    addf (Host.dotGeneral d prec h w)
        (broadcastInDim (⟨2, ![R, C]⟩ : Shape) ![0, 1] h2 (broadcastInDim (⟨2, ![1, C]⟩ : Shape) ![1] h1 b))
      = onRows (affine w fun q => b (ix1 q)) h := by
  funext i
  obtain ⟨p, q, rfl⟩ : ∃ (p : Fin R) (q : Fin C), i = ix2 p q := ⟨i 0, i 1, eq_ix2 i⟩
  rw [addf_apply, bias_bcast_apply]
  show FloatOps.dotGeneral d prec HostSchedule.single h w (ix2 p q) + _ = _
  rw [PlainDot.dotGeneral_apply d hlc hrc hln hrn hlb hrb]
  rfl

/-- The host's layer with the positive part: `maximumf` against the zero constant broadcast to the whole shape. -/
theorem host_affineRelu (prec : Option ContractPrecision) (h : FVec Ideal (⟨2, ![R, K]⟩ : Shape) .f32)
    (w : FVec Ideal (⟨2, ![K, C]⟩ : Shape) .f32) (b : FVec Ideal (⟨1, ![C]⟩ : Shape) .f32)
    (h1 : (⟨1, ![C]⟩ : Shape).BroadcastsInDim ⟨2, ![1, C]⟩ ![1])
    (h2 : (⟨2, ![1, C]⟩ : Shape).BroadcastsInDim ⟨2, ![R, C]⟩ ![0, 1])
    (hz : (⟨0, ![]⟩ : Shape).BroadcastsInDim ⟨2, ![R, C]⟩ ![]) :
    maximumf (addf (Host.dotGeneral d prec h w)
        (broadcastInDim (⟨2, ![R, C]⟩ : Shape) ![0, 1] h2 (broadcastInDim (⟨2, ![1, C]⟩ : Shape) ![1] h1 b)))
        (broadcastInDim (⟨2, ![R, C]⟩ : Shape) ![] hz (constant (F := Ideal) (⟨0, ![]⟩ : Shape) .f32 0x00000000#32))
      = onRows (affineRelu w fun q => b (ix1 q)) h := by
  rw [host_affine d hlc hrc hln hrn hlb hrb]
  funext i
  rw [maximumf_apply, broadcastInDim_apply ![] hz _ i ix0 (fun a => a.elim0), constant_apply, Ideal.ofBits_zero_f32]
  rfl

end Layer

end Cert.DenseRows

end
-- ==== Proof.Network.lean ====
/-
  The network both programs compute, on one row.

  Seven dense layers of widths 128 → 84 → 42 → 32 → 16 → 8 → 4 → 1. Layers one to six take the positive part of
  `∑ k, h k * w (k, q) + b q`; the seventh is the affine map alone. The weights enter already transposed, `w : [in, out]`,
  the biases as functions of the output column. A row of the input determines its entry of the output and no other row
  matters, so over a matrix of rows the network is `onRows (net …)`.
-/
import proofs.«139796_j62766652064010_1_alg».proof.Proof.LibDenseRows

noncomputable section

namespace Cert.Network

open Idealize.ShloMosaic Idealize.ShloMosaic.ValueIdx Cert.DenseRows

/-- The seven-layer network on one row of 128 entries; its value is the single entry of the last layer's row. -/
def net (w1 : (⟨2, ![128, 84]⟩ : Shape).Idx → EReal) (b1 : Fin 84 → EReal)
    (w2 : (⟨2, ![84, 42]⟩ : Shape).Idx → EReal) (b2 : Fin 42 → EReal)
    (w3 : (⟨2, ![42, 32]⟩ : Shape).Idx → EReal) (b3 : Fin 32 → EReal)
    (w4 : (⟨2, ![32, 16]⟩ : Shape).Idx → EReal) (b4 : Fin 16 → EReal)
    (w5 : (⟨2, ![16, 8]⟩ : Shape).Idx → EReal) (b5 : Fin 8 → EReal)
    (w6 : (⟨2, ![8, 4]⟩ : Shape).Idx → EReal) (b6 : Fin 4 → EReal)
    (w7 : (⟨2, ![4, 1]⟩ : Shape).Idx → EReal) (b7 : Fin 1 → EReal)
    (x : Fin 128 → EReal) : Fin 1 → EReal :=
  affine w7 b7 (affineRelu w6 b6 (affineRelu w5 b5 (affineRelu w4 b4 (affineRelu w3 b3 (affineRelu w2 b2 (affineRelu w1 b1 x))))))

end Cert.Network

end
-- ==== Proof.KernelRows.lean ====
/-
  The kernel body's stored value is the network applied to every row of its input block.

  The body loads the `[8192, 128]` block of the input, the seven transposed weight arrays and the seven `[1, C]` bias
  rows, and stores one value: layer after layer a matrix product into the zero accumulator, plus the bias row broadcast
  down the 8192 rows, and (layers one to six) the positive part. Each layer is a row-wise map of the layer before,
  so the stored `[8192, 1]` value is the network of row `p` of the block at entry `(p, 0)`.
-/
import proofs.«139796_j62766652064010_1_alg».proof.Proof.Gen.KernelIdeal.Skeleton
import proofs.«139796_j62766652064010_1_alg».proof.Proof.Network

noncomputable section

namespace Cert.KernelIdeal.Rows

open Cert.KernelIdeal Cert.KernelIdeal.Gen Idealize.ShloMosaic Idealize.ShloMosaic.ValueIdx Cert.DenseRows Cert.Network

/-- The stored value, from the loaded block `x0`, the weights `x1, x3, …, x13` and the bias rows `x2, x4, …, x14`:
    the network on every row of `x0`. -/
theorem payload_rows (x0 : FVec Ideal S8192x128 .f32)
    (x1 : FVec Ideal S128x84 .f32) (x2 : FVec Ideal S1x84 .f32) (x3 : FVec Ideal S84x42 .f32) (x4 : FVec Ideal S1x42 .f32)
    (x5 : FVec Ideal S42x32 .f32) (x6 : FVec Ideal S1x32 .f32) (x7 : FVec Ideal S32x16 .f32) (x8 : FVec Ideal S1x16 .f32)
    (x9 : FVec Ideal S16x8 .f32) (x10 : FVec Ideal S1x8 .f32) (x11 : FVec Ideal S8x4 .f32) (x12 : FVec Ideal S1x4 .f32)
    (x13 : FVec Ideal S4x1 .f32) (x14 : FVec Ideal S1x1 .f32) :
    k0_pay1 (F := Ideal) (k0_pay2 (F := Ideal) x0 x1 x2 x3 x4 x5 x6 x7) (k0_pay3 (F := Ideal) x8) x9 x10 x11 x12 x13 x14
      = onRows (net x1 (row x2) x3 (row x4) x5 (row x6) x7 (row x8) x9 (row x10) x11 (row x12) x13 (row x14)) x0 := by
  unfold k0_pay1 k0_pay2 k0_pay3
  dsimp only
  rw [kernel_affineRelu dot_S8192x128_S128x84_S8192x84_1_0_0_1_n_n rfl rfl rfl rfl rfl rfl none x0 x1 x2,
    kernel_affineRelu dot_S8192x84_S84x42_S8192x42_1_0_0_1_n_n rfl rfl rfl rfl rfl rfl none _ x3 x4,
    kernel_affineRelu dot_S8192x42_S42x32_S8192x32_1_0_0_1_n_n rfl rfl rfl rfl rfl rfl none _ x5 x6,
    kernel_affineRelu dot_S8192x32_S32x16_S8192x16_1_0_0_1_n_n rfl rfl rfl rfl rfl rfl none _ x7 x8,
    kernel_affineRelu dot_S8192x16_S16x8_S8192x8_1_0_0_1_n_n rfl rfl rfl rfl rfl rfl none _ x9 x10,
    kernel_affineRelu dot_S8192x8_S8x4_S8192x4_1_0_0_1_n_n rfl rfl rfl rfl rfl rfl none _ x11 x12,
    kernel_affine dot_S8192x4_S4x1_S8192x1_1_0_0_1_n_n rfl rfl rfl rfl rfl rfl none _ x13 x14]
  rfl

end Cert.KernelIdeal.Rows

end
-- ==== Proof.KernelArray.lean ====
/-
  From the 64 blocks to the whole output array.

  Grid point `t` stages rows `8192 t … 8192 t + 8191` of the input and the whole of every weight and bias array, and
  writes back rows `8192 t … 8192 t + 8191` of the output. The value it writes is the network on every row of its input
  block, and a row of the block is a row of the input array, so what it writes is block `t` of ONE array: the network on
  every row of the input. The 64 blocks tile the 524288 output rows, so that array is what the output holds after the run.
-/
import proofs.«139796_j62766652064010_1_alg».proof.Proof.Gen.KernelIdeal.Value
import proofs.«139796_j62766652064010_1_alg».proof.Proof.KernelRows

noncomputable section

namespace Cert.KernelIdeal.Array

open Cert.KernelIdeal Cert.KernelIdeal.Gen Idealize.ShloMosaic Idealize.ShloMosaic.TcCoe Idealize.SL.Sem
open Idealize.ShloMosaic.ValueIdx Cert.DenseRows Cert.Network Cert.KernelIdeal.Rows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The arrays as the region finds them -/

/-- The input, and each transposed weight array and bias row the host operations before the region wrote. -/
abbrev xArr (c : Dev nD) : FVec Ideal S524288x128 .f32 := V m c main_arg0
abbrev wArr1 (c : Dev nD) : FVec Ideal S128x84 .f32 := V m c main_v0
abbrev bArr1 (c : Dev nD) : FVec Ideal S1x84 .f32 := V m c main_v7
abbrev wArr2 (c : Dev nD) : FVec Ideal S84x42 .f32 := V m c main_v1
abbrev bArr2 (c : Dev nD) : FVec Ideal S1x42 .f32 := V m c main_v8
abbrev wArr3 (c : Dev nD) : FVec Ideal S42x32 .f32 := V m c main_v2
abbrev bArr3 (c : Dev nD) : FVec Ideal S1x32 .f32 := V m c main_v9
abbrev wArr4 (c : Dev nD) : FVec Ideal S32x16 .f32 := V m c main_v3
abbrev bArr4 (c : Dev nD) : FVec Ideal S1x16 .f32 := V m c main_v10
abbrev wArr5 (c : Dev nD) : FVec Ideal S16x8 .f32 := V m c main_v4
abbrev bArr5 (c : Dev nD) : FVec Ideal S1x8 .f32 := V m c main_v11
abbrev wArr6 (c : Dev nD) : FVec Ideal S8x4 .f32 := V m c main_v5
abbrev bArr6 (c : Dev nD) : FVec Ideal S1x4 .f32 := V m c main_v12
abbrev wArr7 (c : Dev nD) : FVec Ideal S4x1 .f32 := V m c main_v6
abbrev bArr7 (c : Dev nD) : FVec Ideal S1x1 .f32 := V m c main_v13

/-- The network on every row of the input, with the weights and bias rows as the region finds them. -/
abbrev result (c : Dev nD) : FVec Ideal S524288x1 .f32 :=
  onRows (net (wArr1 m c) (row (bArr1 m c)) (wArr2 m c) (row (bArr2 m c)) (wArr3 m c) (row (bArr3 m c)) (wArr4 m c) (row (bArr4 m c)) (wArr5 m c) (row (bArr5 m c)) (wArr6 m c) (row (bArr6 m c)) (wArr7 m c) (row (bArr7 m c))) (xArr m c)

/-! ## The index maps, decided over the 64 grid points -/

/-- The input's and the output's block index at point `t` is `(t, 0)`; every weight's and bias row's is `(0, 0)`. -/
theorem idx_facts : ∀ t : Fin cfg0.N,
    win0_0.index t (0 : Fin 2) = t.val ∧ win0_0.index t (1 : Fin 2) = 0
    ∧ win0_15.index t (0 : Fin 2) = t.val ∧ win0_15.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0 :=
  (by decide +kernel : ∀ t : Fin grid0.N, _)

/-! ## The blocks -/

theorem blk1 (c : Dev nD) (t : Fin cfg0.N) : (iblk m c 1 t : FVec Ideal S128x84 .f32) = wArr1 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 1).blk t).view.emb y = y := by
    funext a; apply Fin.ext
    match a with
    | ⟨0, _⟩ => show win0_1.index t (0 : Fin 2) * 128 + 1 * (y 0).val = (y 0).val; omega
    | ⟨1, _⟩ => show win0_1.index t (1 : Fin 2) * 84 + 1 * (y 1).val = (y 1).val; omega
  show V m c main_v0 (((cfg0.win 1).blk t).view.emb y) = V m c main_v0 y
  rw [e]

theorem blk2 (c : Dev nD) (t : Fin cfg0.N) : (iblk m c 2 t : FVec Ideal S1x84 .f32) = bArr1 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 2).blk t).view.emb y = y := by
    funext a; apply Fin.ext
    match a with
    | ⟨0, _⟩ => show win0_2.index t (0 : Fin 2) * 1 + 1 * (y 0).val = (y 0).val; omega
    | ⟨1, _⟩ => show win0_2.index t (1 : Fin 2) * 84 + 1 * (y 1).val = (y 1).val; omega
  show V m c main_v7 (((cfg0.win 2).blk t).view.emb y) = V m c main_v7 y
  rw [e]

theorem blk3 (c : Dev nD) (t : Fin cfg0.N) : (iblk m c 3 t : FVec Ideal S84x42 .f32) = wArr2 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 3).blk t).view.emb y = y := by
    funext a; apply Fin.ext
    match a with
    | ⟨0, _⟩ => show win0_3.index t (0 : Fin 2) * 84 + 1 * (y 0).val = (y 0).val; omega
    | ⟨1, _⟩ => show win0_3.index t (1 : Fin 2) * 42 + 1 * (y 1).val = (y 1).val; omega
  show V m c main_v1 (((cfg0.win 3).blk t).view.emb y) = V m c main_v1 y
  rw [e]

theorem blk4 (c : Dev nD) (t : Fin cfg0.N) : (iblk m c 4 t : FVec Ideal S1x42 .f32) = bArr2 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 4).blk t).view.emb y = y := by
    funext a; apply Fin.ext
    match a with
    | ⟨0, _⟩ => show win0_4.index t (0 : Fin 2) * 1 + 1 * (y 0).val = (y 0).val; omega
    | ⟨1, _⟩ => show win0_4.index t (1 : Fin 2) * 42 + 1 * (y 1).val = (y 1).val; omega
  show V m c main_v8 (((cfg0.win 4).blk t).view.emb y) = V m c main_v8 y
  rw [e]

theorem blk5 (c : Dev nD) (t : Fin cfg0.N) : (iblk m c 5 t : FVec Ideal S42x32 .f32) = wArr3 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 5).blk t).view.emb y = y := by
    funext a; apply Fin.ext
    match a with
    | ⟨0, _⟩ => show win0_5.index t (0 : Fin 2) * 42 + 1 * (y 0).val = (y 0).val; omega
    | ⟨1, _⟩ => show win0_5.index t (1 : Fin 2) * 32 + 1 * (y 1).val = (y 1).val; omega
  show V m c main_v2 (((cfg0.win 5).blk t).view.emb y) = V m c main_v2 y
  rw [e]

theorem blk6 (c : Dev nD) (t : Fin cfg0.N) : (iblk m c 6 t : FVec Ideal S1x32 .f32) = bArr3 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 6).blk t).view.emb y = y := by
    funext a; apply Fin.ext
    match a with
    | ⟨0, _⟩ => show win0_6.index t (0 : Fin 2) * 1 + 1 * (y 0).val = (y 0).val; omega
    | ⟨1, _⟩ => show win0_6.index t (1 : Fin 2) * 32 + 1 * (y 1).val = (y 1).val; omega
  show V m c main_v9 (((cfg0.win 6).blk t).view.emb y) = V m c main_v9 y
  rw [e]

theorem blk7 (c : Dev nD) (t : Fin cfg0.N) : (iblk m c 7 t : FVec Ideal S32x16 .f32) = wArr4 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 7).blk t).view.emb y = y := by
    funext a; apply Fin.ext
    match a with
    | ⟨0, _⟩ => show win0_7.index t (0 : Fin 2) * 32 + 1 * (y 0).val = (y 0).val; omega
    | ⟨1, _⟩ => show win0_7.index t (1 : Fin 2) * 16 + 1 * (y 1).val = (y 1).val; omega
  show V m c main_v3 (((cfg0.win 7).blk t).view.emb y) = V m c main_v3 y
  rw [e]

theorem blk8 (c : Dev nD) (t : Fin cfg0.N) : (iblk m c 8 t : FVec Ideal S1x16 .f32) = bArr4 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 8).blk t).view.emb y = y := by
    funext a; apply Fin.ext
    match a with
    | ⟨0, _⟩ => show win0_8.index t (0 : Fin 2) * 1 + 1 * (y 0).val = (y 0).val; omega
    | ⟨1, _⟩ => show win0_8.index t (1 : Fin 2) * 16 + 1 * (y 1).val = (y 1).val; omega
  show V m c main_v10 (((cfg0.win 8).blk t).view.emb y) = V m c main_v10 y
  rw [e]

theorem blk9 (c : Dev nD) (t : Fin cfg0.N) : (iblk m c 9 t : FVec Ideal S16x8 .f32) = wArr5 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 9).blk t).view.emb y = y := by
    funext a; apply Fin.ext
    match a with
    | ⟨0, _⟩ => show win0_9.index t (0 : Fin 2) * 16 + 1 * (y 0).val = (y 0).val; omega
    | ⟨1, _⟩ => show win0_9.index t (1 : Fin 2) * 8 + 1 * (y 1).val = (y 1).val; omega
  show V m c main_v4 (((cfg0.win 9).blk t).view.emb y) = V m c main_v4 y
  rw [e]

theorem blk10 (c : Dev nD) (t : Fin cfg0.N) : (iblk m c 10 t : FVec Ideal S1x8 .f32) = bArr5 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 10).blk t).view.emb y = y := by
    funext a; apply Fin.ext
    match a with
    | ⟨0, _⟩ => show win0_10.index t (0 : Fin 2) * 1 + 1 * (y 0).val = (y 0).val; omega
    | ⟨1, _⟩ => show win0_10.index t (1 : Fin 2) * 8 + 1 * (y 1).val = (y 1).val; omega
  show V m c main_v11 (((cfg0.win 10).blk t).view.emb y) = V m c main_v11 y
  rw [e]

theorem blk11 (c : Dev nD) (t : Fin cfg0.N) : (iblk m c 11 t : FVec Ideal S8x4 .f32) = wArr6 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 11).blk t).view.emb y = y := by
    funext a; apply Fin.ext
    match a with
    | ⟨0, _⟩ => show win0_11.index t (0 : Fin 2) * 8 + 1 * (y 0).val = (y 0).val; omega
    | ⟨1, _⟩ => show win0_11.index t (1 : Fin 2) * 4 + 1 * (y 1).val = (y 1).val; omega
  show V m c main_v5 (((cfg0.win 11).blk t).view.emb y) = V m c main_v5 y
  rw [e]

theorem blk12 (c : Dev nD) (t : Fin cfg0.N) : (iblk m c 12 t : FVec Ideal S1x4 .f32) = bArr6 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 12).blk t).view.emb y = y := by
    funext a; apply Fin.ext
    match a with
    | ⟨0, _⟩ => show win0_12.index t (0 : Fin 2) * 1 + 1 * (y 0).val = (y 0).val; omega
    | ⟨1, _⟩ => show win0_12.index t (1 : Fin 2) * 4 + 1 * (y 1).val = (y 1).val; omega
  show V m c main_v12 (((cfg0.win 12).blk t).view.emb y) = V m c main_v12 y
  rw [e]

theorem blk13 (c : Dev nD) (t : Fin cfg0.N) : (iblk m c 13 t : FVec Ideal S4x1 .f32) = wArr7 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 13).blk t).view.emb y = y := by
    funext a; apply Fin.ext
    match a with
    | ⟨0, _⟩ => show win0_13.index t (0 : Fin 2) * 4 + 1 * (y 0).val = (y 0).val; omega
    | ⟨1, _⟩ => show win0_13.index t (1 : Fin 2) * 1 + 1 * (y 1).val = (y 1).val; omega
  show V m c main_v6 (((cfg0.win 13).blk t).view.emb y) = V m c main_v6 y
  rw [e]

theorem blk14 (c : Dev nD) (t : Fin cfg0.N) : (iblk m c 14 t : FVec Ideal S1x1 .f32) = bArr7 m c := by
  funext y
  obtain ⟨-, -, -, -, e1r, e1c, e2r, e2c, e3r, e3c, e4r, e4c, e5r, e5c, e6r, e6c, e7r, e7c, e8r, e8c, e9r, e9c, e10r, e10c, e11r, e11c, e12r, e12c, e13r, e13c, e14r, e14c⟩ := idx_facts t
  have e : ((cfg0.win 14).blk t).view.emb y = y := by
    funext a; apply Fin.ext
    match a with
    | ⟨0, _⟩ => show win0_14.index t (0 : Fin 2) * 1 + 1 * (y 0).val = (y 0).val; omega
    | ⟨1, _⟩ => show win0_14.index t (1 : Fin 2) * 1 + 1 * (y 1).val = (y 1).val; omega
  show V m c main_v13 (((cfg0.win 14).blk t).view.emb y) = V m c main_v13 y
  rw [e]

/-- Row `p` of the input's block at point `t` is row `8192 t + p` of the input: the row of the output block's own index. -/
theorem xrow (c : Dev nD) (t : Fin cfg0.N) (p : Fin 8192) (q : Fin 1) :
    (fun k : Fin 128 => (iblk m c 0 t : FVec Ideal S8192x128 .f32) (ix2 p k))
      = fun k : Fin 128 => xArr m c (ix2 ((((cfg0.win 15).blk t).view.emb (ix2 p q) : S524288x1.Idx) 0) k) := by
  funext k
  obtain ⟨e0r, e0c, e15r, e15c, -⟩ := idx_facts t
  have e : ((cfg0.win 0).blk t).view.emb (ix2 p k) = ix2 ((((cfg0.win 15).blk t).view.emb (ix2 p q) : S524288x1.Idx) 0) k := by
    funext a; apply Fin.ext
    match a with
    | ⟨0, _⟩ => show win0_0.index t (0 : Fin 2) * 8192 + 1 * p.val = win0_15.index t (0 : Fin 2) * 8192 + 1 * p.val; omega
    | ⟨1, _⟩ => show win0_0.index t (1 : Fin 2) * 128 + 1 * k.val = k.val; omega
  exact congrArg (xArr m c) e

/-- WHAT POINT `t` WRITES BACK is block `t` of the network on every row of the input. -/
theorem flushed_eq (c : Dev nD) (t : Fin cfg0.N) :
    (dats m 0 c).flushed 15 t = ((cfg0.win 15).blk t).view.read (Elt Ideal) (result m c) := by
  rw [Value.flushed15]
  unfold out0_15
  rw [View.canon_unit_zero hz]
  simp only [View.ld_unit_zero (S := S8192x128) hz, View.ld_unit_zero (S := S128x84) hz, View.ld_unit_zero (S := S1x84) hz, View.ld_unit_zero (S := S84x42) hz, View.ld_unit_zero (S := S1x42) hz, View.ld_unit_zero (S := S42x32) hz, View.ld_unit_zero (S := S1x32) hz, View.ld_unit_zero (S := S32x16) hz, View.ld_unit_zero (S := S1x16) hz, View.ld_unit_zero (S := S16x8) hz, View.ld_unit_zero (S := S1x8) hz, View.ld_unit_zero (S := S8x4) hz, View.ld_unit_zero (S := S1x4) hz, View.ld_unit_zero (S := S4x1) hz, View.ld_unit_zero (S := S1x1) hz]
  rw [blk1 m c t, blk2 m c t, blk3 m c t, blk4 m c t, blk5 m c t, blk6 m c t, blk7 m c t, blk8 m c t, blk9 m c t, blk10 m c t, blk11 m c t, blk12 m c t, blk13 m c t, blk14 m c t]
  rw [payload_rows (iblk m c 0 t) (wArr1 m c) (bArr1 m c) (wArr2 m c) (bArr2 m c) (wArr3 m c) (bArr3 m c) (wArr4 m c) (bArr4 m c) (wArr5 m c) (bArr5 m c) (wArr6 m c) (bArr6 m c) (wArr7 m c) (bArr7 m c)]
  funext j
  obtain ⟨p, q, rfl⟩ : ∃ (p : Fin 8192) (q : Fin 1), j = ix2 p q := ⟨j 0, j 1, eq_ix2 j⟩
  show net (wArr1 m c) (row (bArr1 m c)) (wArr2 m c) (row (bArr2 m c)) (wArr3 m c) (row (bArr3 m c)) (wArr4 m c) (row (bArr4 m c)) (wArr5 m c) (row (bArr5 m c)) (wArr6 m c) (row (bArr6 m c)) (wArr7 m c) (row (bArr7 m c)) (fun k : Fin 128 => (iblk m c 0 t : FVec Ideal S8192x128 .f32) (ix2 p k)) q
      = net (wArr1 m c) (row (bArr1 m c)) (wArr2 m c) (row (bArr2 m c)) (wArr3 m c) (row (bArr3 m c)) (wArr4 m c) (row (bArr4 m c)) (wArr5 m c) (row (bArr5 m c)) (wArr6 m c) (row (bArr6 m c)) (wArr7 m c) (row (bArr7 m c)) (fun k : Fin 128 => xArr m c (ix2 ((((cfg0.win 15).blk t).view.emb (ix2 p q) : S524288x1.Idx) 0) k)) ((((cfg0.win 15).blk t).view.emb (ix2 p q) : S524288x1.Idx) 1)
  rw [xrow m c t p q]
  refine congrArg _ (Fin.ext ?_)
  obtain ⟨-, -, -, e15c, -⟩ := idx_facts t
  show q.val = win0_15.index t (1 : Fin 2) * 1 + 1 * q.val
  omega

/-! ## The cover -/

/-- An index of the output is in point `t`'s block iff each coordinate is in the block's range on its axis. -/
theorem mem_blk (t : Fin cfg0.N) (i : S524288x1.Idx) :
    i ∈ ((cfg0.win 15).blk t).view.set ↔ ∀ a : Fin 2, win0_15.index t a * S8192x1.size a ≤ (i a).val ∧ (i a).val < win0_15.index t a * S8192x1.size a + S8192x1.size a := by
  show i ∈ ((View.whole main_v14).slice (win0_15.rect t)).set ↔ _
  rw [View.set_slice_whole, Rect.mem_set_unit]
  exact Iff.rfl

/-- Row `r` of the output lies in the block of point `r / 8192`: the 64 blocks cover the array, so after the run it holds
    the network on every row of the input. -/
theorem final (c : Dev nD) : (dats m 0 c).arrAt 15 cfg0.N = result m c :=
  (dats m 0 c).arrAt_eq_of_cover 15 (result m c) (fun t _ => flushed_eq m c t) fun i => by
    have hi0 : (i 0).val < 524288 := (i 0).isLt
    have hi1 : (i 1).val < 1 := (i 1).isLt
    have hN : cfg0.N = 64 := N_0
    obtain ⟨-, -, e15r, e15c, -⟩ := idx_facts ⟨(i 0).val / 8192, by rw [hN]; omega⟩
    refine ⟨⟨(i 0).val / 8192, by rw [hN]; omega⟩, flush0_15 _, ?_⟩
    rw [mem_blk]
    intro a
    match a with
    | ⟨0, _⟩ =>
      show win0_15.index ⟨(i 0).val / 8192, _⟩ (0 : Fin 2) * 8192 ≤ (i 0).val ∧ (i 0).val < win0_15.index ⟨(i 0).val / 8192, _⟩ (0 : Fin 2) * 8192 + 8192
      rw [e15r]
      show (i 0).val / 8192 * 8192 ≤ (i 0).val ∧ (i 0).val < (i 0).val / 8192 * 8192 + 8192
      omega
    | ⟨1, _⟩ =>
      show win0_15.index ⟨(i 0).val / 8192, _⟩ (1 : Fin 2) * 1 ≤ (i 1).val ∧ (i 1).val < win0_15.index ⟨(i 0).val / 8192, _⟩ (1 : Fin 2) * 1 + 1
      rw [e15c]
      omega

/-! ## The arrays the region finds, read back to the arguments -/

theorem xArr_eq (c : Dev nD) : xArr m c = m ((c : Thread nD τ).loc main_arg0) := V_main_arg0 m c

theorem wArr1_eq (c : Dev nD) : wArr1 m c = transpose S128x84 [1, 0] (m ((c : Thread nD τ).loc main_arg1)) transposes_S84x128_S128x84_1_0 := by
  dsimp only [wArr1, V, hostOps0]
  after_results <;> rfl

theorem bArr1_eq (c : Dev nD) : bArr1 m c = shapeCast S1x84 (m ((c : Thread nD τ).loc main_arg2)) shapeCasts_S84_S1x84 := by
  dsimp only [bArr1, V, hostOps0]
  after_results <;> rfl

theorem wArr2_eq (c : Dev nD) : wArr2 m c = transpose S84x42 [1, 0] (m ((c : Thread nD τ).loc main_arg3)) transposes_S42x84_S84x42_1_0 := by
  dsimp only [wArr2, V, hostOps0]
  after_results <;> rfl

theorem bArr2_eq (c : Dev nD) : bArr2 m c = shapeCast S1x42 (m ((c : Thread nD τ).loc main_arg4)) shapeCasts_S42_S1x42 := by
  dsimp only [bArr2, V, hostOps0]
  after_results <;> rfl

theorem wArr3_eq (c : Dev nD) : wArr3 m c = transpose S42x32 [1, 0] (m ((c : Thread nD τ).loc main_arg5)) transposes_S32x42_S42x32_1_0 := by
  dsimp only [wArr3, V, hostOps0]
  after_results <;> rfl

theorem bArr3_eq (c : Dev nD) : bArr3 m c = shapeCast S1x32 (m ((c : Thread nD τ).loc main_arg6)) shapeCasts_S32_S1x32 := by
  dsimp only [bArr3, V, hostOps0]
  after_results <;> rfl

theorem wArr4_eq (c : Dev nD) : wArr4 m c = transpose S32x16 [1, 0] (m ((c : Thread nD τ).loc main_arg7)) transposes_S16x32_S32x16_1_0 := by
  dsimp only [wArr4, V, hostOps0]
  after_results <;> rfl

theorem bArr4_eq (c : Dev nD) : bArr4 m c = shapeCast S1x16 (m ((c : Thread nD τ).loc main_arg8)) shapeCasts_S16_S1x16 := by
  dsimp only [bArr4, V, hostOps0]
  after_results <;> rfl

theorem wArr5_eq (c : Dev nD) : wArr5 m c = transpose S16x8 [1, 0] (m ((c : Thread nD τ).loc main_arg9)) transposes_S8x16_S16x8_1_0 := by
  dsimp only [wArr5, V, hostOps0]
  after_results <;> rfl

theorem bArr5_eq (c : Dev nD) : bArr5 m c = shapeCast S1x8 (m ((c : Thread nD τ).loc main_arg10)) shapeCasts_S8_S1x8 := by
  dsimp only [bArr5, V, hostOps0]
  after_results <;> rfl

theorem wArr6_eq (c : Dev nD) : wArr6 m c = transpose S8x4 [1, 0] (m ((c : Thread nD τ).loc main_arg11)) transposes_S4x8_S8x4_1_0 := by
  dsimp only [wArr6, V, hostOps0]
  after_results <;> rfl

theorem bArr6_eq (c : Dev nD) : bArr6 m c = shapeCast S1x4 (m ((c : Thread nD τ).loc main_arg12)) shapeCasts_S4_S1x4 := by
  dsimp only [bArr6, V, hostOps0]
  after_results <;> rfl

theorem wArr7_eq (c : Dev nD) : wArr7 m c = transpose S4x1 [1, 0] (m ((c : Thread nD τ).loc main_arg13)) transposes_S1x4_S4x1_1_0 := by
  dsimp only [wArr7, V, hostOps0]
  after_results <;> rfl

theorem bArr7_eq (c : Dev nD) : bArr7 m c = shapeCast S1x1 (m ((c : Thread nD τ).loc main_arg14)) shapeCasts_S1_S1x1 := by
  dsimp only [bArr7, V, hostOps0]
  after_results <;> rfl

/-- The kernel's result as a function of its arguments: the network, with each weight array transposed, on every row of the input. -/
abbrev out (c : Dev nD) : FVec Ideal S524288x1 .f32 :=
  onRows (net (transpose S128x84 [1, 0] (m ((c : Thread nD τ).loc main_arg1)) transposes_S84x128_S128x84_1_0) (col ((m ((c : Thread nD τ).loc main_arg2)) : FVec Ideal S84 .f32))
      (transpose S84x42 [1, 0] (m ((c : Thread nD τ).loc main_arg3)) transposes_S42x84_S84x42_1_0) (col ((m ((c : Thread nD τ).loc main_arg4)) : FVec Ideal S42 .f32))
      (transpose S42x32 [1, 0] (m ((c : Thread nD τ).loc main_arg5)) transposes_S32x42_S42x32_1_0) (col ((m ((c : Thread nD τ).loc main_arg6)) : FVec Ideal S32 .f32))
      (transpose S32x16 [1, 0] (m ((c : Thread nD τ).loc main_arg7)) transposes_S16x32_S32x16_1_0) (col ((m ((c : Thread nD τ).loc main_arg8)) : FVec Ideal S16 .f32))
      (transpose S16x8 [1, 0] (m ((c : Thread nD τ).loc main_arg9)) transposes_S8x16_S16x8_1_0) (col ((m ((c : Thread nD τ).loc main_arg10)) : FVec Ideal S8 .f32))
      (transpose S8x4 [1, 0] (m ((c : Thread nD τ).loc main_arg11)) transposes_S4x8_S8x4_1_0) (col ((m ((c : Thread nD τ).loc main_arg12)) : FVec Ideal S4 .f32))
      (transpose S4x1 [1, 0] (m ((c : Thread nD τ).loc main_arg13)) transposes_S1x4_S4x1_1_0) (col ((m ((c : Thread nD τ).loc main_arg14)) : FVec Ideal S1 .f32)))
    ((m ((c : Thread nD τ).loc main_arg0)) : FVec Ideal S524288x128 .f32)

/-- The weights the region finds are the transposed arguments, the bias rows the reshaped arguments, and the row of a
    reshaped bias is the bias. -/
theorem result_eq_out (c : Dev nD) : result m c = out m c := by
  show onRows (net (wArr1 m c) (row (bArr1 m c)) (wArr2 m c) (row (bArr2 m c)) (wArr3 m c) (row (bArr3 m c)) (wArr4 m c) (row (bArr4 m c)) (wArr5 m c) (row (bArr5 m c)) (wArr6 m c) (row (bArr6 m c)) (wArr7 m c) (row (bArr7 m c))) (xArr m c) = _
  rw [xArr_eq, wArr1_eq, bArr1_eq, wArr2_eq, bArr2_eq, wArr3_eq, bArr3_eq, wArr4_eq, bArr4_eq, wArr5_eq, bArr5_eq, wArr6_eq, bArr6_eq, wArr7_eq, bArr7_eq]
  rw [row_reshape (C := 84), row_reshape (C := 42), row_reshape (C := 32), row_reshape (C := 16), row_reshape (C := 8), row_reshape (C := 4), row_reshape (C := 1)]

/-! ## The run, read -/

/-- The frame run re-posted: the output array is `out` of the arguments, the arguments unchanged. -/
theorem run : θ_run defs (onTc (τ := τ) (main (F := Ideal))) ⟨m, fun _ => 0, ρ⟩ fun r => ∀ c : Dev nD,
      r.2.mem ((c : Thread nD τ).loc main_v14) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans ((final m c).trans (result_eq_out m c)), (h c).2⟩)
    (Cert.KernelIdeal.Value.run_blocks m ρ)

end Cert.KernelIdeal.Array

end
-- ==== Proof.ReferenceRows.lean ====
/-
  The reference's result is the network applied to every row of its input.

  The reference computes, layer after layer over all 524288 rows at once, a `dot_general` with the transposed weights,
  plus the bias broadcast to `[1, C]` and then down the rows, and (layers one to six) the positive part as
  `maximum` against the zero constant broadcast to the layer's shape. Each layer is a row-wise map of the layer
  before, so the `[524288, 1]` result is the network of row `p` of the input at entry `(p, 0)`.
-/
import proofs.«139796_j62766652064010_1_alg».proof.Proof.Gen.ReferenceIdeal.Run
import proofs.«139796_j62766652064010_1_alg».proof.Proof.Network

noncomputable section

namespace Cert.ReferenceIdeal.Rows

open Cert.ReferenceIdeal Cert.ReferenceIdeal.Gen Idealize.ShloMosaic Idealize.ShloMosaic.TcCoe Idealize.SL.Sem
open Idealize.ShloMosaic.ValueIdx Cert.DenseRows Cert.Network

/-- The composed term of the reference's operations, over the input `x`, the transposed weights `w1 … w7` and the biases
    `b1 … b7`: the network on every row of `x`. -/
theorem result_rows (x : FVec Ideal S524288x128 .f32)
    (w1 : FVec Ideal S128x84 .f32) (b1 : FVec Ideal S84 .f32) (w2 : FVec Ideal S84x42 .f32) (b2 : FVec Ideal S42 .f32)
    (w3 : FVec Ideal S42x32 .f32) (b3 : FVec Ideal S32 .f32) (w4 : FVec Ideal S32x16 .f32) (b4 : FVec Ideal S16 .f32)
    (w5 : FVec Ideal S16x8 .f32) (b5 : FVec Ideal S8 .f32) (w6 : FVec Ideal S8x4 .f32) (b6 : FVec Ideal S4 .f32)
    (w7 : FVec Ideal S4x1 .f32) (b7 : FVec Ideal S1 .f32) :
    (addf (Host.dotGeneral dot_S524288x4_S4x1_S524288x1_1_0_0_1_n_n none (maximumf (addf (Host.dotGeneral dot_S524288x8_S8x4_S524288x4_1_0_0_1_n_n none (maximumf (addf (Host.dotGeneral dot_S524288x16_S16x8_S524288x8_1_0_0_1_n_n none (maximumf (addf (Host.dotGeneral dot_S524288x32_S32x16_S524288x16_1_0_0_1_n_n none (maximumf (addf (Host.dotGeneral dot_S524288x42_S42x32_S524288x32_1_0_0_1_n_n none (maximumf (addf (Host.dotGeneral dot_S524288x84_S84x42_S524288x42_1_0_0_1_n_n none (maximumf (addf (Host.dotGeneral dot_S524288x128_S128x84_S524288x84_1_0_0_1_n_n none x w1) (broadcastInDim S524288x84 ![0, 1] bcast_S1x84_S524288x84_0_1 (broadcastInDim S1x84 ![1] bcast_S84_S1x84_1 b1))) (broadcastInDim S524288x84 ![] bcast_S_S524288x84 (constant S_ .f32 0x00000000#32))) w2) (broadcastInDim S524288x42 ![0, 1] bcast_S1x42_S524288x42_0_1 (broadcastInDim S1x42 ![1] bcast_S42_S1x42_1 b2))) (broadcastInDim S524288x42 ![] bcast_S_S524288x42 (constant S_ .f32 0x00000000#32))) w3) (broadcastInDim S524288x32 ![0, 1] bcast_S1x32_S524288x32_0_1 (broadcastInDim S1x32 ![1] bcast_S32_S1x32_1 b3))) (broadcastInDim S524288x32 ![] bcast_S_S524288x32 (constant S_ .f32 0x00000000#32))) w4) (broadcastInDim S524288x16 ![0, 1] bcast_S1x16_S524288x16_0_1 (broadcastInDim S1x16 ![1] bcast_S16_S1x16_1 b4))) (broadcastInDim S524288x16 ![] bcast_S_S524288x16 (constant S_ .f32 0x00000000#32))) w5) (broadcastInDim S524288x8 ![0, 1] bcast_S1x8_S524288x8_0_1 (broadcastInDim S1x8 ![1] bcast_S8_S1x8_1 b5))) (broadcastInDim S524288x8 ![] bcast_S_S524288x8 (constant S_ .f32 0x00000000#32))) w6) (broadcastInDim S524288x4 ![0, 1] bcast_S1x4_S524288x4_0_1 (broadcastInDim S1x4 ![1] bcast_S4_S1x4_1 b6))) (broadcastInDim S524288x4 ![] bcast_S_S524288x4 (constant S_ .f32 0x00000000#32))) w7) (broadcastInDim S524288x1 ![0, 1] bcast_S1x1_S524288x1_0_1 (broadcastInDim S1x1 ![1] bcast_S1_S1x1_1 b7)) : FVec Ideal S524288x1 .f32)
      = onRows (net w1 (col b1) w2 (col b2) w3 (col b3) w4 (col b4) w5 (col b5) w6 (col b6) w7 (col b7)) x := by
  rw [host_affineRelu dot_S524288x128_S128x84_S524288x84_1_0_0_1_n_n rfl rfl rfl rfl rfl rfl none x w1 b1,
    host_affineRelu dot_S524288x84_S84x42_S524288x42_1_0_0_1_n_n rfl rfl rfl rfl rfl rfl none _ w2 b2,
    host_affineRelu dot_S524288x42_S42x32_S524288x32_1_0_0_1_n_n rfl rfl rfl rfl rfl rfl none _ w3 b3,
    host_affineRelu dot_S524288x32_S32x16_S524288x16_1_0_0_1_n_n rfl rfl rfl rfl rfl rfl none _ w4 b4,
    host_affineRelu dot_S524288x16_S16x8_S524288x8_1_0_0_1_n_n rfl rfl rfl rfl rfl rfl none _ w5 b5,
    host_affineRelu dot_S524288x8_S8x4_S524288x4_1_0_0_1_n_n rfl rfl rfl rfl rfl rfl none _ w6 b6,
    host_affine dot_S524288x4_S4x1_S524288x1_1_0_0_1_n_n rfl rfl rfl rfl rfl rfl none _ w7 b7]
  rfl

variable (m : (ℓ : Loc nD τ sig) → Buf (Elt Ideal) ℓ) (ρ : Dev nD → PrngReg)

/-- The reference's result as a function of its arguments: the network, with each weight array transposed, on every row of the input. -/
abbrev out (c : Dev nD) : FVec Ideal S524288x1 .f32 :=
  onRows (net (transpose S128x84 [1, 0] (m ((c : Thread nD τ).loc main_arg1)) transposes_S84x128_S128x84_1_0) (col ((m ((c : Thread nD τ).loc main_arg2)) : FVec Ideal S84 .f32))
      (transpose S84x42 [1, 0] (m ((c : Thread nD τ).loc main_arg3)) transposes_S42x84_S84x42_1_0) (col ((m ((c : Thread nD τ).loc main_arg4)) : FVec Ideal S42 .f32))
      (transpose S42x32 [1, 0] (m ((c : Thread nD τ).loc main_arg5)) transposes_S32x42_S42x32_1_0) (col ((m ((c : Thread nD τ).loc main_arg6)) : FVec Ideal S32 .f32))
      (transpose S32x16 [1, 0] (m ((c : Thread nD τ).loc main_arg7)) transposes_S16x32_S32x16_1_0) (col ((m ((c : Thread nD τ).loc main_arg8)) : FVec Ideal S16 .f32))
      (transpose S16x8 [1, 0] (m ((c : Thread nD τ).loc main_arg9)) transposes_S8x16_S16x8_1_0) (col ((m ((c : Thread nD τ).loc main_arg10)) : FVec Ideal S8 .f32))
      (transpose S8x4 [1, 0] (m ((c : Thread nD τ).loc main_arg11)) transposes_S4x8_S8x4_1_0) (col ((m ((c : Thread nD τ).loc main_arg12)) : FVec Ideal S4 .f32))
      (transpose S4x1 [1, 0] (m ((c : Thread nD τ).loc main_arg13)) transposes_S1x4_S4x1_1_0) (col ((m ((c : Thread nD τ).loc main_arg14)) : FVec Ideal S1 .f32)))
    ((m ((c : Thread nD τ).loc main_arg0)) : FVec Ideal S524288x128 .f32)

/-- The reference's run re-posted: the result is `out` of the arguments, the arguments unchanged. -/
theorem run : θ_run defs (onTc (τ := τ) (main (F := Ideal))) ⟨m, fun _ => 0, ρ⟩ fun r => ∀ c : Dev nD,
      r.2.mem ((c : Thread nD τ).loc main_v40) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (result_rows _ _ _ _ _ _ _ _ _ _ _ _ _ _ _), (h c).2⟩)
    (Cert.ReferenceIdeal.Value.run (F := Ideal) m ρ)

end Cert.ReferenceIdeal.Rows

end
-- ==== Proof.lean ====
/-
  A seven-layer perceptron, `x ↦ W7 · relu(W6 · … relu(W1 · x + b1) … + b6) + b7`, over 524288 rows of 128 entries:
  the kernel against the reference, equal as extended reals entry by entry.

  The kernel transposes the seven weight arrays and reshapes the seven biases to `[1, C]` rows on the host, then runs a
  grid of 64 points; point `t` takes rows `8192 t … 8192 t + 8191` of the input and computes, layer after layer, a matrix
  product into the zero accumulator plus the bias row, and the positive part on layers one to six. The reference does the
  same layers over all rows at once with `dot_general` against the same transposed weights. On the extended reals both
  matrix products are the sum `∑ k, h (p, k) * w (k, q)`, so each layer acts on every row independently and the whole
  chain is ONE function of a row (`Network.net`). The kernel's 64 blocks are that function on the rows of each block and
  tile the output (`KernelIdeal.Array.run`); the reference's composed term is that function on every row
  (`ReferenceIdeal.Rows.run`); from agreeing arguments the two results are the same array. No law of arithmetic beyond the
  reading of a matrix product as a sum is used, so finiteness of the inputs is never opened. The ideal pass rewrote
  nothing, so `preserves` has nothing to state.
-/
import proofs.«139796_j62766652064010_1_alg».proof.Defs
import proofs.«139796_j62766652064010_1_alg».proof.Proof.Gen.Kernel
import proofs.«139796_j62766652064010_1_alg».proof.Proof.Gen.Kernel.Skeleton
import proofs.«139796_j62766652064010_1_alg».proof.Proof.Gen.Kernel.Launch
import proofs.«139796_j62766652064010_1_alg».proof.Proof.Gen.Kernel.Points
import proofs.«139796_j62766652064010_1_alg».proof.Proof.Gen.Kernel.Frame
import proofs.«139796_j62766652064010_1_alg».proof.Proof.Gen.KernelIdeal
import proofs.«139796_j62766652064010_1_alg».proof.Proof.Gen.KernelIdeal.Skeleton
import proofs.«139796_j62766652064010_1_alg».proof.Proof.Gen.KernelIdeal.Launch
import proofs.«139796_j62766652064010_1_alg».proof.Proof.Gen.KernelIdeal.Points
import proofs.«139796_j62766652064010_1_alg».proof.Proof.Gen.KernelIdeal.Frame
import proofs.«139796_j62766652064010_1_alg».proof.Proof.Gen.ReferenceIdeal
import proofs.«139796_j62766652064010_1_alg».proof.Proof.Gen.Pre_finite_inputs
import proofs.«139796_j62766652064010_1_alg».proof.Proof.Gen.KernelIdeal.Value
import proofs.«139796_j62766652064010_1_alg».proof.Proof.Gen.ReferenceIdeal.Run
import proofs.«139796_j62766652064010_1_alg».proof.Proof.KernelArray
import proofs.«139796_j62766652064010_1_alg».proof.Proof.ReferenceRows
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From agreeing arguments both programs end with the network on every row of the input: the kernel block by block,
    the reference over all rows at once. -/
theorem algebraic : Cert.algebraic_KernelIdeal_ReferenceIdeal := by
  intro m ρ m' ρ' _ hagree
  refine ⟨fun c => Cert.KernelIdeal.Array.out m c, Cert.KernelIdeal.Array.run m ρ, ?_⟩
  refine (θ_run Cert.ReferenceIdeal.defs _ _).mono (fun _ h c => ⟨(h c).1.trans ?_, (h c).2⟩)
    (Cert.ReferenceIdeal.Rows.run m' ρ')
  obtain ⟨h0, h1, h2, h3, h4, h5, h6, h7, h8, h9, h10, h11, h12, h13, h14⟩ := hagree c
  dsimp only [Cert.ReferenceIdeal.Rows.out, Cert.KernelIdeal.Array.out]
  rw [h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
